-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v67) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8x512 : Shape := ⟨3, ![64, 8, 512]⟩
abbrev S64x512x512 : Shape := ⟨3, ![64, 512, 512]⟩
abbrev S64x512 : Shape := ⟨2, ![64, 512]⟩
abbrev S512x512 : Shape := ⟨2, ![512, 512]⟩
abbrev S2048x512 : Shape := ⟨2, ![2048, 512]⟩
abbrev S512 : Shape := ⟨1, ![512]⟩
abbrev S_ : Shape := ⟨0, ![]⟩

class Facts : Prop where
  bcast_S_S64x8x512 : S_.BroadcastsInDim S64x8x512 (![] : Fin 0 → Fin S64x8x512.rank)
  reducesTo_S64x8x512_S_d0_1_2 : S64x8x512.ReducesTo [0, 1, 2] S_
  h_S_ : 0 < S_.numel
  bcast_S_S64x512x512 : S_.BroadcastsInDim S64x512x512 (![] : Fin 0 → Fin S64x512x512.rank)
  reducesTo_S64x512x512_S_d0_1_2 : S64x512x512.ReducesTo [0, 1, 2] S_
  bcast_S_S512x512 : S_.BroadcastsInDim S512x512 (![] : Fin 0 → Fin S512x512.rank)
  reducesTo_S512x512_S_d0_1 : S512x512.ReducesTo [0, 1] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S2048x512 .f32) (main_arg6 : FVec F S512 .f32) (main_arg7 : FVec F S512 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S2048x512 .f32 := Host.absf main_arg5
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S64x8x512 .f32) (main_arg1 : FVec F S64x512x512 .f32) (main_arg2 : IVec S64x512 1) (main_arg3 : FVec F S512x512 .f32) (main_arg4 : FVec F S2048x512 .f32) (main_arg5 : FVec F S2048x512 .f32) (main_arg6 : FVec F S512 .f32) (main_arg7 : FVec F S512 .f32) : IVec S_ 1 :=
  let main_v0 : FVec F S64x8x512 .f32 := Host.absf main_arg0
  let main_cst : FVec F S_ .f32 := constant S_ .f32 0x7F800000#32
  let main_v1 : FVec F S64x8x512 .f32 := broadcastInDim S64x8x512 ![] bcast_S_S64x8x512 main_cst
  let main_v2 : IVec S64x8x512 1 := cmpf .olt main_v0 main_v1
  let main_c : IVec S_ 1 := constantI S_ 1 1#1
  let main_v3 : IVec S_ 1 := (fun x v => Host.reduce IntOp.andi x v reducesTo_S64x8x512_S_d0_1_2 h_S_) main_v2 main_c
  let main_v4 : FVec F S64x512x512 .f32 := Host.absf main_arg1
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S2048x512 .f32 := Host.absf main_arg4
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg5 main_arg6 main_arg7 main_v13 main_v16
-- ==== Kernel.lean ====
abbrev S64x8x512 : Shape := ⟨3, ![64, 8, 512]⟩
abbrev S64x512x512 : Shape := ⟨3, ![64, 512, 512]⟩
abbrev S64x512 : Shape := ⟨2, ![64, 512]⟩
abbrev S512x512 : Shape := ⟨2, ![512, 512]⟩
abbrev S2048x512 : Shape := ⟨2, ![2048, 512]⟩
abbrev S512 : Shape := ⟨1, ![512]⟩
abbrev S_ : Shape := ⟨0, ![]⟩
abbrev S64x8 : Shape := ⟨2, ![64, 8]⟩
abbrev S64x8x1 : Shape := ⟨3, ![64, 8, 1]⟩
abbrev S1x1x512 : Shape := ⟨3, ![1, 1, 512]⟩
abbrev S4096x512 : Shape := ⟨2, ![4096, 512]⟩
abbrev S32768x512 : Shape := ⟨2, ![32768, 512]⟩
abbrev S512x4096 : Shape := ⟨2, ![512, 4096]⟩
abbrev S32768x4096 : Shape := ⟨2, ![32768, 4096]⟩
abbrev S64x512x4096 : Shape := ⟨3, ![64, 512, 4096]⟩
abbrev S64x512x2048 : Shape := ⟨3, ![64, 512, 2048]⟩
abbrev S64x512x4x512 : Shape := ⟨4, ![64, 512, 4, 512]⟩
abbrev S64x512x4 : Shape := ⟨3, ![64, 512, 4]⟩
abbrev S64x512x4x1 : Shape := ⟨4, ![64, 512, 4, 1]⟩
abbrev S1x1x1x512 : Shape := ⟨4, ![1, 1, 1, 512]⟩
abbrev S64x4x2x512 : Shape := ⟨4, ![64, 4, 2, 512]⟩
abbrev S64x4x512x512 : Shape := ⟨4, ![64, 4, 512, 512]⟩
abbrev S64x1x1x512 : Shape := ⟨4, ![64, 1, 1, 512]⟩
abbrev S64x4x2 : Shape := ⟨3, ![64, 4, 2]⟩
abbrev S64x4x2x1 : Shape := ⟨4, ![64, 4, 2, 1]⟩
abbrev S64x8x1x512 : Shape := ⟨4, ![64, 8, 1, 512]⟩

abbrev nBuf : Space → Nat
  | .hbm => 92
  | .vmem => 8
  | .smem => 0
  | _ => 0

abbrev bufTy : (tb : Table) → Fin (tcTables nBuf tb) → BufTy
  | .hbm, ⟨0, _⟩ => ⟨S64x8x512, .f32⟩
  | .hbm, ⟨1, _⟩ => ⟨S64x512x512, .f32⟩
  | .hbm, ⟨2, _⟩ => ⟨S64x512, .i1⟩
  | .hbm, ⟨3, _⟩ => ⟨S512x512, .f32⟩
  | .hbm, ⟨4, _⟩ => ⟨S2048x512, .f32⟩
  | .hbm, ⟨5, _⟩ => ⟨S2048x512, .f32⟩
  | .hbm, ⟨6, _⟩ => ⟨S512, .f32⟩
  | .hbm, ⟨7, _⟩ => ⟨S512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S64x8x512, .f32⟩
  | .hbm, ⟨12, _⟩ => ⟨S64x8x512, .f32⟩
  | .hbm, ⟨13, _⟩ => ⟨S_, .f32⟩
  | .hbm, ⟨14, _⟩ => ⟨S64x8, .f32⟩
  | .hbm, ⟨15, _⟩ => ⟨S64x8x1, .f32⟩
  | .hbm, ⟨16, _⟩ => ⟨S_, .f32⟩
  | .hbm, ⟨17, _⟩ => ⟨S64x8x1, .f32⟩
  | .hbm, ⟨18, _⟩ => ⟨S64x8x1, .f32⟩
  | .hbm, ⟨19, _⟩ => ⟨S_, .f32⟩
  | .hbm, ⟨20, _⟩ => ⟨S64x8x1, .f32⟩
  | .hbm, ⟨21, _⟩ => ⟨S64x8x1, .f32⟩
  | .hbm, ⟨22, _⟩ => ⟨S64x8x1, .f32⟩
  | .hbm, ⟨23, _⟩ => ⟨S64x8x512, .f32⟩
  | .hbm, ⟨24, _⟩ => ⟨S64x8x512, .f32⟩
  | .hbm, ⟨25, _⟩ => ⟨S_, .f32⟩
  | .hbm, ⟨26, _⟩ => ⟨S512, .f32⟩
  | .hbm, ⟨27, _⟩ => ⟨S512, .f32⟩
  | .hbm, ⟨28, _⟩ => ⟨S1x1x512, .f32⟩
  | .hbm, ⟨29, _⟩ => ⟨S64x8x512, .f32⟩
  | .hbm, ⟨30, _⟩ => ⟨S64x8x512, .f32⟩
  | .hbm, ⟨31, _⟩ => ⟨S4096x512, .f32⟩
  | .hbm, ⟨32, _⟩ => ⟨S32768x512, .f32⟩
  | .hbm, ⟨33, _⟩ => ⟨S512x4096, .f32⟩
  | .hbm, ⟨34, _⟩ => ⟨S32768x4096, .f32⟩
  | .hbm, ⟨35, _⟩ => ⟨S64x512x4096, .f32⟩
  | .hbm, ⟨36, _⟩ => ⟨S64x512x2048, .f32⟩
  | .hbm, ⟨37, _⟩ => ⟨S64x512x4x512, .f32⟩
  | .hbm, ⟨38, _⟩ => ⟨S64x512x2048, .f32⟩
  | .hbm, ⟨39, _⟩ => ⟨S64x512x4x512, .f32⟩
  | .hbm, ⟨40, _⟩ => ⟨S64x512x4x512, .f32⟩
  | .hbm, ⟨41, _⟩ => ⟨S_, .f32⟩
  | .hbm, ⟨42, _⟩ => ⟨S64x512x4, .f32⟩
  | .hbm, ⟨43, _⟩ => ⟨S64x512x4x1, .f32⟩
  | .hbm, ⟨44, _⟩ => ⟨S_, .f32⟩
  | .hbm, ⟨45, _⟩ => ⟨S64x512x4x1, .f32⟩
  | .hbm, ⟨46, _⟩ => ⟨S64x512x4x1, .f32⟩
  | .hbm, ⟨47, _⟩ => ⟨S_, .f32⟩
  | .hbm, ⟨48, _⟩ => ⟨S64x512x4x1, .f32⟩
  | .hbm, ⟨49, _⟩ => ⟨S64x512x4x1, .f32⟩
  | .hbm, ⟨50, _⟩ => ⟨S64x512x4x1, .f32⟩
  | .hbm, ⟨51, _⟩ => ⟨S64x512x4x512, .f32⟩
  | .hbm, ⟨52, _⟩ => ⟨S64x512x4x512, .f32⟩
  | .hbm, ⟨53, _⟩ => ⟨S_, .f32⟩
  | .hbm, ⟨54, _⟩ => ⟨S512, .f32⟩
  | .hbm, ⟨55, _⟩ => ⟨S512, .f32⟩
  | .hbm, ⟨56, _⟩ => ⟨S1x1x1x512, .f32⟩
  | .hbm, ⟨57, _⟩ => ⟨S64x512x4x512, .f32⟩
  | .hbm, ⟨58, _⟩ => ⟨S64x512x4x512, .f32⟩
  | .hbm, ⟨59, _⟩ => ⟨S64x4x2x512, .f32⟩
  | .hbm, ⟨60, _⟩ => ⟨S64x4x512x512, .f32⟩
  | .hbm, ⟨61, _⟩ => ⟨S64x4x512x512, .f32⟩
  | .hbm, ⟨62, _⟩ => ⟨S64x4x2x512, .f32⟩
  | .hbm, ⟨63, _⟩ => ⟨S_, .f32⟩
  | .hbm, ⟨64, _⟩ => ⟨S64x4x2x512, .f32⟩
  | .hbm, ⟨65, _⟩ => ⟨S64x4x2x512, .f32⟩
  | .hbm, ⟨66, _⟩ => ⟨S_, .f32⟩
  | .hbm, ⟨67, _⟩ => ⟨S_, .f32⟩
  | .hbm, ⟨68, _⟩ => ⟨S64x512, .f32⟩
  | .hbm, ⟨69, _⟩ => ⟨S64x512, .f32⟩
  | .hbm, ⟨70, _⟩ => ⟨S64x512, .f32⟩
  | .hbm, ⟨71, _⟩ => ⟨S64x512, .f32⟩
  | .hbm, ⟨72, _⟩ => ⟨S64x1x1x512, .f32⟩
  | .hbm, ⟨73, _⟩ => ⟨S64x4x2x512, .f32⟩
  | .hbm, ⟨74, _⟩ => ⟨S64x4x2x512, .f32⟩
  | .hbm, ⟨75, _⟩ => ⟨S_, .f32⟩
  | .hbm, ⟨76, _⟩ => ⟨S64x4x2, .f32⟩
  | .hbm, ⟨77, _⟩ => ⟨S_, .f32⟩
  | .hbm, ⟨78, _⟩ => ⟨S64x4x2, .f32⟩
  | .hbm, ⟨79, _⟩ => ⟨S64x4x2, .f32⟩
  | .hbm, ⟨80, _⟩ => ⟨S64x4x2x1, .f32⟩
  | .hbm, ⟨81, _⟩ => ⟨S64x4x2x512, .f32⟩
  | .hbm, ⟨82, _⟩ => ⟨S64x4x2x512, .f32⟩
  | .hbm, ⟨83, _⟩ => ⟨S64x4x2x512, .f32⟩
  | .hbm, ⟨84, _⟩ => ⟨S_, .f32⟩
  | .hbm, ⟨85, _⟩ => ⟨S64x4x2, .f32⟩
  | .hbm, ⟨86, _⟩ => ⟨S64x4x2x1, .f32⟩
  | .hbm, ⟨87, _⟩ => ⟨S64x4x2x512, .f32⟩
  | .hbm, ⟨88, _⟩ => ⟨S64x4x2x512, .f32⟩
  | .hbm, ⟨89, _⟩ => ⟨S64x4x2x512, .f32⟩
  | .hbm, ⟨90, _⟩ => ⟨S64x8x512, .f32⟩
  | .hbm, ⟨91, _⟩ => ⟨S64x8x1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x4096, .f32⟩
  | .local _ .vmem, ⟨6, _⟩ => ⟨S512x4096, .f32⟩
  | .local _ .vmem, ⟨7, _⟩ => ⟨S512x4096, .f32⟩
  | _, _ => ⟨S64x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_cst_9 : Ref sig .tc := ⟨.hbm, 67, rfl⟩
abbrev main_call0_v0 : Ref sig .tc := ⟨.hbm, 68, rfl⟩
abbrev main_call0_v1 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S64x8x512_S512x512 : S64x8x512.ShapeCasts S512x512
  transposes_S512x512_S512x512_1_0 : S512x512.Transposes [1, 0] S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  shapeCasts_S512x512_S64x8x512 : S512x512.ShapeCasts S64x8x512
  reducesTo_S64x8x512_S64x8_d2 : S64x8x512.ReducesTo [2] S64x8
  h_S_ : 0 < S_.numel
  bcast_S64x8_S64x8x1_0_1 : S64x8.BroadcastsInDim S64x8x1 (![0, 1] : Fin 2 → Fin S64x8x1.rank)
  bcast_S_S64x8x1 : S_.BroadcastsInDim S64x8x1 (![] : Fin 0 → Fin S64x8x1.rank)
  bcast_S64x8x1_S64x8x512_0_1_2 : S64x8x1.BroadcastsInDim S64x8x512 (![0, 1, 2] : Fin 3 → Fin S64x8x512.rank)
  bcast_S_S512 : S_.BroadcastsInDim S512 (![] : Fin 0 → Fin S512.rank)
  bcast_S512_S1x1x512_2 : S512.BroadcastsInDim S1x1x512 (![2] : Fin 1 → Fin S1x1x512.rank)
  bcast_S1x1x512_S64x8x512_0_1_2 : S1x1x512.BroadcastsInDim S64x8x512 (![0, 1, 2] : Fin 3 → Fin S64x8x512.rank)
  concatenates_S2048x512_S2048x512_S4096x512_d0 : Shape.Concatenates [S2048x512, S2048x512] S4096x512 0
  shapeCasts_S64x512x512_S32768x512 : S64x512x512.ShapeCasts S32768x512
  transposes_S4096x512_S512x4096_1_0 : S4096x512.Transposes [1, 0] S512x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  shapeCasts_S32768x4096_S64x512x4096 : S32768x4096.ShapeCasts S64x512x4096
  slices_S64x512x4096_S64x512x2048_0_0_0 : S64x512x4096.Slices ![0, 0, 0] S64x512x2048
  shapeCasts_S64x512x2048_S64x512x4x512 : S64x512x2048.ShapeCasts S64x512x4x512
  slices_S64x512x4096_S64x512x2048_0_0_2048 : S64x512x4096.Slices ![0, 0, 2048] S64x512x2048
  reducesTo_S64x512x4x512_S64x512x4_d3 : S64x512x4x512.ReducesTo [3] S64x512x4
  bcast_S64x512x4_S64x512x4x1_0_1_2 : S64x512x4.BroadcastsInDim S64x512x4x1 (![0, 1, 2] : Fin 3 → Fin S64x512x4x1.rank)
  bcast_S_S64x512x4x1 : S_.BroadcastsInDim S64x512x4x1 (![] : Fin 0 → Fin S64x512x4x1.rank)
  bcast_S64x512x4x1_S64x512x4x512_0_1_2_3 : S64x512x4x1.BroadcastsInDim S64x512x4x512 (![0, 1, 2, 3] : Fin 4 → Fin S64x512x4x512.rank)
  bcast_S512_S1x1x1x512_3 : S512.BroadcastsInDim S1x1x1x512 (![3] : Fin 1 → Fin S1x1x1x512.rank)
  bcast_S1x1x1x512_S64x512x4x512_0_1_2_3 : S1x1x1x512.BroadcastsInDim S64x512x4x512 (![0, 1, 2, 3] : Fin 4 → Fin S64x512x4x512.rank)
  shapeCasts_S64x8x512_S64x4x2x512 : S64x8x512.ShapeCasts S64x4x2x512
  transposes_S64x512x4x512_S64x4x512x512_0_2_1_3 : S64x512x4x512.Transposes [0, 2, 1, 3] S64x4x512x512
  bcast_S_S64x4x2x512 : S_.BroadcastsInDim S64x4x2x512 (![] : Fin 0 → Fin S64x4x2x512.rank)
  bcast_S_S64x512 : S_.BroadcastsInDim S64x512 (![] : Fin 0 → Fin S64x512.rank)
  bcast_S64x512_S64x1x1x512_0_3 : S64x512.BroadcastsInDim S64x1x1x512 (![0, 3] : Fin 2 → Fin S64x1x1x512.rank)
  bcast_S64x1x1x512_S64x4x2x512_0_1_2_3 : S64x1x1x512.BroadcastsInDim S64x4x2x512 (![0, 1, 2, 3] : Fin 4 → Fin S64x4x2x512.rank)
  reducesTo_S64x4x2x512_S64x4x2_d3 : S64x4x2x512.ReducesTo [3] S64x4x2
  bcast_S_S64x4x2 : S_.BroadcastsInDim S64x4x2 (![] : Fin 0 → Fin S64x4x2.rank)
  bcast_S64x4x2_S64x4x2x1_0_1_2 : S64x4x2.BroadcastsInDim S64x4x2x1 (![0, 1, 2] : Fin 3 → Fin S64x4x2x1.rank)
  bcast_S64x4x2x1_S64x4x2x512_0_1_2_3 : S64x4x2x1.BroadcastsInDim S64x4x2x512 (![0, 1, 2, 3] : Fin 4 → Fin S64x4x2x512.rank)
  shapeCasts_S64x4x2x512_S64x8x512 : S64x4x2x512.ShapeCasts S64x8x512
  shapeCasts_S64x4x2x512_S64x8x1x512 : S64x4x2x512.ShapeCasts S64x8x1x512
  dot_S512x512_S512x512_S512x512_1_0_0_1_n_n_wf : DotDims.WF S512x512 S512x512 S512x512 [1] [0] [0] [1] [] []
  dot_S512x512_S512x4096_S512x4096_1_0_0_1_n_n_wf : DotDims.WF S512x512 S512x4096 S512x4096 [1] [0] [0] [1] [] []
  dot_S64x4x2x512_S64x4x512x512_S64x4x2x512_3_3_2_2_01_01_wf : DotDims.WF S64x4x2x512 S64x4x512x512 S64x4x2x512 [3] [3] [2] [2] [0, 1] [0, 1]
  dot_S64x4x2x512_S64x4x512x512_S64x4x2x512_3_2_2_3_01_01_wf : DotDims.WF S64x4x2x512 S64x4x512x512 S64x4x2x512 [3] [2] [2] [3] [0, 1] [0, 1]
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S32768x512.size a
  hwx1_0 : ∀ i : grid1.Coords, EltTy.bits .f32 = 32 ∨ (Rect.block (s := S32768x512) S512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S512x4096.size a
  hwx1_1 : ∀ i : grid1.Coords, EltTy.bits .f32 = 32 ∨ (Rect.block (s := S512x4096) S512x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S32768x4096.size a
  hwx1_2 : ∀ i : grid1.Coords, EltTy.bits .f32 = 32 ∨ (Rect.block (s := S32768x4096) S512x4096.size (cc1_transform_2 i) (hinb1_2 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf
def dot_S64x4x2x512_S64x4x512x512_S64x4x2x512_3_3_2_2_01_01 : DotDims S64x4x2x512 S64x4x512x512 S64x4x2x512 where
  lhsContracting := [3]
  rhsContracting := [3]
  lhsNonContracting := [2]
  rhsNonContracting := [2]
  lhsBatch := [0, 1]
  rhsBatch := [0, 1]
  wf := dot_S64x4x2x512_S64x4x512x512_S64x4x2x512_3_3_2_2_01_01_wf
def dot_S64x4x2x512_S64x4x512x512_S64x4x2x512_3_2_2_3_01_01 : DotDims S64x4x2x512 S64x4x512x512 S64x4x2x512 where
  lhsContracting := [3]
  rhsContracting := [2]
  lhsNonContracting := [2]
  rhsNonContracting := [3]
  lhsBatch := [0, 1]
  rhsBatch := [0, 1]
  wf := dot_S64x4x2x512_S64x4x512x512_S64x4x2x512_3_2_2_3_01_01_wf

abbrev win0_0 : Pipeline.Window sig grid0 :=
  Pipeline.Window.ofSpec (Memref.whole main_v0) S512x512.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 true false 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v20) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S512x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S512x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S64x8x512 : Shape := ⟨3, ![64, 8, 512]⟩
abbrev S64x512x512 : Shape := ⟨3, ![64, 512, 512]⟩
abbrev S64x512 : Shape := ⟨2, ![64, 512]⟩
abbrev S512x512 : Shape := ⟨2, ![512, 512]⟩
abbrev S2048x512 : Shape := ⟨2, ![2048, 512]⟩
abbrev S512 : Shape := ⟨1, ![512]⟩
abbrev S_ : Shape := ⟨0, ![]⟩
abbrev S64x8 : Shape := ⟨2, ![64, 8]⟩
abbrev S64x8x1 : Shape := ⟨3, ![64, 8, 1]⟩
abbrev S1x1x512 : Shape := ⟨3, ![1, 1, 512]⟩
abbrev S64x512x2048 : Shape := ⟨3, ![64, 512, 2048]⟩
abbrev S64x512x4x512 : Shape := ⟨4, ![64, 512, 4, 512]⟩
abbrev S64x512x4 : Shape := ⟨3, ![64, 512, 4]⟩
abbrev S64x512x4x1 : Shape := ⟨4, ![64, 512, 4, 1]⟩
abbrev S1x1x1x512 : Shape := ⟨4, ![1, 1, 1, 512]⟩
abbrev S64x4x2x512 : Shape := ⟨4, ![64, 4, 2, 512]⟩
abbrev S64x4x512x512 : Shape := ⟨4, ![64, 4, 512, 512]⟩
abbrev S64x1x1x512 : Shape := ⟨4, ![64, 1, 1, 512]⟩
abbrev S64x4x2 : Shape := ⟨3, ![64, 4, 2]⟩
abbrev S64x4x2x1 : Shape := ⟨4, ![64, 4, 2, 1]⟩
abbrev S64x8x1x512 : Shape := ⟨4, ![64, 8, 1, 512]⟩

abbrev nBuf : Space → Nat
  | .hbm => 84
  | .vmem => 0
  | .smem => 0
  | _ => 0

abbrev bufTy : (tb : Table) → Fin (tcTables nBuf tb) → BufTy
  | .hbm, ⟨0, _⟩ => ⟨S64x8x512, .f32⟩
  | .hbm, ⟨1, _⟩ => ⟨S64x512x512, .f32⟩
  | .hbm, ⟨2, _⟩ => ⟨S64x512, .i1⟩
  | .hbm, ⟨3, _⟩ => ⟨S512x512, .f32⟩
  | .hbm, ⟨4, _⟩ => ⟨S2048x512, .f32⟩
  | .hbm, ⟨5, _⟩ => ⟨S2048x512, .f32⟩
  | .hbm, ⟨6, _⟩ => ⟨S512, .f32⟩
  | .hbm, ⟨7, _⟩ => ⟨S512, .f32⟩
  | .hbm, ⟨8, _⟩ => ⟨S64x8x512, .f32⟩
  | .hbm, ⟨9, _⟩ => ⟨S64x8x512, .f32⟩
  | .hbm, ⟨10, _⟩ => ⟨S_, .f32⟩
  | .hbm, ⟨11, _⟩ => ⟨S64x8, .f32⟩
  | .hbm, ⟨12, _⟩ => ⟨S64x8x1, .f32⟩
  | .hbm, ⟨13, _⟩ => ⟨S_, .f32⟩
  | .hbm, ⟨14, _⟩ => ⟨S64x8x1, .f32⟩
  | .hbm, ⟨15, _⟩ => ⟨S64x8x1, .f32⟩
  | .hbm, ⟨16, _⟩ => ⟨S_, .f32⟩
  | .hbm, ⟨17, _⟩ => ⟨S64x8x1, .f32⟩
  | .hbm, ⟨18, _⟩ => ⟨S64x8x1, .f32⟩
  | .hbm, ⟨19, _⟩ => ⟨S64x8x1, .f32⟩
  | .hbm, ⟨20, _⟩ => ⟨S64x8x512, .f32⟩
  | .hbm, ⟨21, _⟩ => ⟨S64x8x512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S1x1x512, .f32⟩
  | .hbm, ⟨26, _⟩ => ⟨S64x8x512, .f32⟩
  | .hbm, ⟨27, _⟩ => ⟨S64x8x512, .f32⟩
  | .hbm, ⟨28, _⟩ => ⟨S64x512x2048, .f32⟩
  | .hbm, ⟨29, _⟩ => ⟨S64x512x4x512, .f32⟩
  | .hbm, ⟨30, _⟩ => ⟨S64x512x2048, .f32⟩
  | .hbm, ⟨31, _⟩ => ⟨S64x512x4x512, .f32⟩
  | .hbm, ⟨32, _⟩ => ⟨S64x512x4x512, .f32⟩
  | .hbm, ⟨33, _⟩ => ⟨S_, .f32⟩
  | .hbm, ⟨34, _⟩ => ⟨S64x512x4, .f32⟩
  | .hbm, ⟨35, _⟩ => ⟨S64x512x4x1, .f32⟩
  | .hbm, ⟨36, _⟩ => ⟨S_, .f32⟩
  | .hbm, ⟨37, _⟩ => ⟨S64x512x4x1, .f32⟩
  | .hbm, ⟨38, _⟩ => ⟨S64x512x4x1, .f32⟩
  | .hbm, ⟨39, _⟩ => ⟨S_, .f32⟩
  | .hbm, ⟨40, _⟩ => ⟨S64x512x4x1, .f32⟩
  | .hbm, ⟨41, _⟩ => ⟨S64x512x4x1, .f32⟩
  | .hbm, ⟨42, _⟩ => ⟨S64x512x4x1, .f32⟩
  | .hbm, ⟨43, _⟩ => ⟨S64x512x4x512, .f32⟩
  | .hbm, ⟨44, _⟩ => ⟨S64x512x4x512, .f32⟩
  | .hbm, ⟨45, _⟩ => ⟨S_, .f32⟩
  | .hbm, ⟨46, _⟩ => ⟨S512, .f32⟩
  | .hbm, ⟨47, _⟩ => ⟨S512, .f32⟩
  | .hbm, ⟨48, _⟩ => ⟨S1x1x1x512, .f32⟩
  | .hbm, ⟨49, _⟩ => ⟨S64x512x4x512, .f32⟩
  | .hbm, ⟨50, _⟩ => ⟨S64x512x4x512, .f32⟩
  | .hbm, ⟨51, _⟩ => ⟨S64x4x2x512, .f32⟩
  | .hbm, ⟨52, _⟩ => ⟨S64x4x512x512, .f32⟩
  | .hbm, ⟨53, _⟩ => ⟨S64x4x512x512, .f32⟩
  | .hbm, ⟨54, _⟩ => ⟨S64x4x2x512, .f32⟩
  | .hbm, ⟨55, _⟩ => ⟨S_, .f32⟩
  | .hbm, ⟨56, _⟩ => ⟨S64x4x2x512, .f32⟩
  | .hbm, ⟨57, _⟩ => ⟨S64x4x2x512, .f32⟩
  | .hbm, ⟨58, _⟩ => ⟨S_, .f32⟩
  | .hbm, ⟨59, _⟩ => ⟨S_, .f32⟩
  | .hbm, ⟨60, _⟩ => ⟨S64x512, .f32⟩
  | .hbm, ⟨61, _⟩ => ⟨S64x512, .f32⟩
  | .hbm, ⟨62, _⟩ => ⟨S64x512, .f32⟩
  | .hbm, ⟨63, _⟩ => ⟨S64x512, .f32⟩
  | .hbm, ⟨64, _⟩ => ⟨S64x1x1x512, .f32⟩
  | .hbm, ⟨65, _⟩ => ⟨S64x4x2x512, .f32⟩
  | .hbm, ⟨66, _⟩ => ⟨S64x4x2x512, .f32⟩
  | .hbm, ⟨67, _⟩ => ⟨S_, .f32⟩
  | .hbm, ⟨68, _⟩ => ⟨S64x4x2, .f32⟩
  | .hbm, ⟨69, _⟩ => ⟨S_, .f32⟩
  | .hbm, ⟨70, _⟩ => ⟨S64x4x2, .f32⟩
  | .hbm, ⟨71, _⟩ => ⟨S64x4x2, .f32⟩
  | .hbm, ⟨72, _⟩ => ⟨S64x4x2x1, .f32⟩
  | .hbm, ⟨73, _⟩ => ⟨S64x4x2x512, .f32⟩
  | .hbm, ⟨74, _⟩ => ⟨S64x4x2x512, .f32⟩
  | .hbm, ⟨75, _⟩ => ⟨S64x4x2x512, .f32⟩
  | .hbm, ⟨76, _⟩ => ⟨S_, .f32⟩
  | .hbm, ⟨77, _⟩ => ⟨S64x4x2, .f32⟩
  | .hbm, ⟨78, _⟩ => ⟨S64x4x2x1, .f32⟩
  | .hbm, ⟨79, _⟩ => ⟨S64x4x2x512, .f32⟩
  | .hbm, ⟨80, _⟩ => ⟨S64x4x2x512, .f32⟩
  | .hbm, ⟨81, _⟩ => ⟨S64x4x2x512, .f32⟩
  | .hbm, ⟨82, _⟩ => ⟨S64x8x512, .f32⟩
  | .hbm, ⟨83, _⟩ => ⟨S64x8x1x512, .f32⟩
  | _, _ => ⟨S64x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_cst_9 : Ref sig .tc := ⟨.hbm, 59, rfl⟩
abbrev main_call0_v0 : Ref sig .tc := ⟨.hbm, 60, rfl⟩
abbrev main_call0_v1 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_cst_11 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_12 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]

class Facts₀ : Prop where
  reducesTo_S64x8x512_S64x8_d2 : S64x8x512.ReducesTo [2] S64x8
  h_S_ : 0 < S_.numel
  bcast_S64x8_S64x8x1_0_1 : S64x8.BroadcastsInDim S64x8x1 (![0, 1] : Fin 2 → Fin S64x8x1.rank)
  bcast_S_S64x8x1 : S_.BroadcastsInDim S64x8x1 (![] : Fin 0 → Fin S64x8x1.rank)
  bcast_S64x8x1_S64x8x512_0_1_2 : S64x8x1.BroadcastsInDim S64x8x512 (![0, 1, 2] : Fin 3 → Fin S64x8x512.rank)
  bcast_S_S512 : S_.BroadcastsInDim S512 (![] : Fin 0 → Fin S512.rank)
  bcast_S512_S1x1x512_2 : S512.BroadcastsInDim S1x1x512 (![2] : Fin 1 → Fin S1x1x512.rank)
  bcast_S1x1x512_S64x8x512_0_1_2 : S1x1x512.BroadcastsInDim S64x8x512 (![0, 1, 2] : Fin 3 → Fin S64x8x512.rank)
  shapeCasts_S64x512x2048_S64x512x4x512 : S64x512x2048.ShapeCasts S64x512x4x512
  reducesTo_S64x512x4x512_S64x512x4_d3 : S64x512x4x512.ReducesTo [3] S64x512x4
  bcast_S64x512x4_S64x512x4x1_0_1_2 : S64x512x4.BroadcastsInDim S64x512x4x1 (![0, 1, 2] : Fin 3 → Fin S64x512x4x1.rank)
  bcast_S_S64x512x4x1 : S_.BroadcastsInDim S64x512x4x1 (![] : Fin 0 → Fin S64x512x4x1.rank)
  bcast_S64x512x4x1_S64x512x4x512_0_1_2_3 : S64x512x4x1.BroadcastsInDim S64x512x4x512 (![0, 1, 2, 3] : Fin 4 → Fin S64x512x4x512.rank)
  bcast_S512_S1x1x1x512_3 : S512.BroadcastsInDim S1x1x1x512 (![3] : Fin 1 → Fin S1x1x1x512.rank)
  bcast_S1x1x1x512_S64x512x4x512_0_1_2_3 : S1x1x1x512.BroadcastsInDim S64x512x4x512 (![0, 1, 2, 3] : Fin 4 → Fin S64x512x4x512.rank)
  shapeCasts_S64x8x512_S64x4x2x512 : S64x8x512.ShapeCasts S64x4x2x512
  transposes_S64x512x4x512_S64x4x512x512_0_2_1_3 : S64x512x4x512.Transposes [0, 2, 1, 3] S64x4x512x512
  bcast_S_S64x4x2x512 : S_.BroadcastsInDim S64x4x2x512 (![] : Fin 0 → Fin S64x4x2x512.rank)
  bcast_S_S64x512 : S_.BroadcastsInDim S64x512 (![] : Fin 0 → Fin S64x512.rank)
  bcast_S64x512_S64x1x1x512_0_3 : S64x512.BroadcastsInDim S64x1x1x512 (![0, 3] : Fin 2 → Fin S64x1x1x512.rank)
  bcast_S64x1x1x512_S64x4x2x512_0_1_2_3 : S64x1x1x512.BroadcastsInDim S64x4x2x512 (![0, 1, 2, 3] : Fin 4 → Fin S64x4x2x512.rank)
  reducesTo_S64x4x2x512_S64x4x2_d3 : S64x4x2x512.ReducesTo [3] S64x4x2
  bcast_S_S64x4x2 : S_.BroadcastsInDim S64x4x2 (![] : Fin 0 → Fin S64x4x2.rank)
  bcast_S64x4x2_S64x4x2x1_0_1_2 : S64x4x2.BroadcastsInDim S64x4x2x1 (![0, 1, 2] : Fin 3 → Fin S64x4x2x1.rank)
  bcast_S64x4x2x1_S64x4x2x512_0_1_2_3 : S64x4x2x1.BroadcastsInDim S64x4x2x512 (![0, 1, 2, 3] : Fin 4 → Fin S64x4x2x512.rank)
  shapeCasts_S64x4x2x512_S64x8x512 : S64x4x2x512.ShapeCasts S64x8x512
  shapeCasts_S64x4x2x512_S64x8x1x512 : S64x4x2x512.ShapeCasts S64x8x1x512
  dot_S64x8x512_S512x512_S64x8x512_2_1_01_0_n_n_wf : DotDims.WF S64x8x512 S512x512 S64x8x512 [2] [1] [0, 1] [0] [] []
  dot_S64x512x512_S2048x512_S64x512x2048_2_1_01_0_n_n_wf : DotDims.WF S64x512x512 S2048x512 S64x512x2048 [2] [1] [0, 1] [0] [] []
  dot_S64x4x2x512_S64x4x512x512_S64x4x2x512_3_3_2_2_01_01_wf : DotDims.WF S64x4x2x512 S64x4x512x512 S64x4x2x512 [3] [3] [2] [2] [0, 1] [0, 1]
  dot_S64x4x2x512_S64x4x512x512_S64x4x2x512_3_2_2_3_01_01_wf : DotDims.WF S64x4x2x512 S64x4x512x512 S64x4x2x512 [3] [2] [2] [3] [0, 1] [0, 1]

variable [Facts₀]

def dot_S64x8x512_S512x512_S64x8x512_2_1_01_0_n_n : DotDims S64x8x512 S512x512 S64x8x512 where
  lhsContracting := [2]
  rhsContracting := [1]
  lhsNonContracting := [0, 1]
  rhsNonContracting := [0]
  lhsBatch := []
  rhsBatch := []
  wf := dot_S64x8x512_S512x512_S64x8x512_2_1_01_0_n_n_wf
def dot_S64x512x512_S2048x512_S64x512x2048_2_1_01_0_n_n : DotDims S64x512x512 S2048x512 S64x512x2048 where
  lhsContracting := [2]
  rhsContracting := [1]
  lhsNonContracting := [0, 1]
  rhsNonContracting := [0]
  lhsBatch := []
  rhsBatch := []
  wf := dot_S64x512x512_S2048x512_S64x512x2048_2_1_01_0_n_n_wf
def dot_S64x4x2x512_S64x4x512x512_S64x4x2x512_3_3_2_2_01_01 : DotDims S64x4x2x512 S64x4x512x512 S64x4x2x512 where
  lhsContracting := [3]
  rhsContracting := [3]
  lhsNonContracting := [2]
  rhsNonContracting := [2]
  lhsBatch := [0, 1]
  rhsBatch := [0, 1]
  wf := dot_S64x4x2x512_S64x4x512x512_S64x4x2x512_3_3_2_2_01_01_wf
def dot_S64x4x2x512_S64x4x512x512_S64x4x2x512_3_2_2_3_01_01 : DotDims S64x4x2x512 S64x4x512x512 S64x4x2x512 where
  lhsContracting := [3]
  rhsContracting := [2]
  lhsNonContracting := [2]
  rhsNonContracting := [3]
  lhsBatch := [0, 1]
  rhsBatch := [0, 1]
  wf := dot_S64x4x2x512_S64x4x512x512_S64x4x2x512_3_2_2_3_01_01_wf

class Facts : Prop extends Facts₀ where

variable [Facts]
-- ==== Proof.Tail.lean ====
/-
  What both programs compute AFTER the three projections, as functions of the projected arrays: the two RMS
  normalisations, the grouped-query attention weights (a softmax over the history axis of the scaled scores plus the
  padding bias) and the two results. The reference applies these functions to its three `dot_general`s; the kernel
  applies the same operations, in the same order, to what its two matrix products leave. Everything here is generic in
  the float family: nothing is evaluated, the two sides only have to be the SAME composition.
-/
import proofs.«123326_j592705487400_1_alg».proof.Proof.Gen.ReferenceIdeal

noncomputable section

namespace Cert.ReferenceIdeal.Attn

open Cert.ReferenceIdeal Cert.ReferenceIdeal.Gen Idealize.ShloMosaic Idealize.SL.Sem

variable {F : FTy → Type} [FloatOps F]

/-- RMS normalisation of the projected queries `q : [64, 8, 512]` along the last axis, scaled by `1 + w`:
    `q · rsqrt(mean(q²) + ε) · (1 + w)`, the mean as the sum over the 512 entries divided by 512. -/
def normQ (q : FVec F S64x8x512 .f32) (w : FVec F S512 .f32) : FVec F S64x8x512 .f32 :=
  mulf (mulf q (broadcastInDim S64x8x512 ![0, 1, 2] bcast_S64x8x1_S64x8x512_0_1_2 (Host.rsqrt (addf (Host.divf (broadcastInDim S64x8x1 ![0, 1] bcast_S64x8_S64x8x1_0_1 (Host.reduceAdd (mulf q q) (constant S_ .f32 0x00000000#32) reducesTo_S64x8x512_S64x8_d2 h_S_)) (broadcastInDim S64x8x1 ![] bcast_S_S64x8x1 (constant S_ .f32 0x44000000#32))) (broadcastInDim S64x8x1 ![] bcast_S_S64x8x1 (constant S_ .f32 0x358637BD#32))))))
    (broadcastInDim S64x8x512 ![0, 1, 2] bcast_S1x1x512_S64x8x512_0_1_2 (broadcastInDim S1x1x512 ![2] bcast_S512_S1x1x512_2 (addf (broadcastInDim S512 ![] bcast_S_S512 (constant S_ .f32 0x3F800000#32)) w)))

/-- The same normalisation of the projected keys `k : [64, 512, 4, 512]` (batch, position, head, feature) along the
    feature axis. -/
def normK (k : FVec F S64x512x4x512 .f32) (w : FVec F S512 .f32) : FVec F S64x512x4x512 .f32 :=
  mulf (mulf k (broadcastInDim S64x512x4x512 ![0, 1, 2, 3] bcast_S64x512x4x1_S64x512x4x512_0_1_2_3 (Host.rsqrt (addf (Host.divf (broadcastInDim S64x512x4x1 ![0, 1, 2] bcast_S64x512x4_S64x512x4x1_0_1_2 (Host.reduceAdd (mulf k k) (constant S_ .f32 0x00000000#32) reducesTo_S64x512x4x512_S64x512x4_d3 h_S_)) (broadcastInDim S64x512x4x1 ![] bcast_S_S64x512x4x1 (constant S_ .f32 0x44000000#32))) (broadcastInDim S64x512x4x1 ![] bcast_S_S64x512x4x1 (constant S_ .f32 0x358637BD#32))))))
    (broadcastInDim S64x512x4x512 ![0, 1, 2, 3] bcast_S1x1x1x512_S64x512x4x512_0_1_2_3 (broadcastInDim S1x1x1x512 ![3] bcast_S512_S1x1x1x512_3 (addf (broadcastInDim S512 ![] bcast_S_S512 (constant S_ .f32 0x3F800000#32)) w)))

/-- The biased scores `[64, 4, 2, 512]` (batch, key-value head, query in the group, history position): the normalised
    queries regrouped by key-value head against the normalised keys, contracted over the feature axis, times the scale,
    plus `-∞` at padded positions and `0` elsewhere. -/
def scores (qn : FVec F S64x8x512 .f32) (kn : FVec F S64x512x4x512 .f32) (mask : IVec S64x512 1) : FVec F S64x4x2x512 .f32 :=
  addf (mulf (Host.dotGeneral dot_S64x4x2x512_S64x4x512x512_S64x4x2x512_3_3_2_2_01_01 none (shapeCast _ qn shapeCasts_S64x8x512_S64x4x2x512) (transpose S64x4x512x512 [0, 2, 1, 3] kn transposes_S64x512x4x512_S64x4x512x512_0_2_1_3)) (broadcastInDim S64x4x2x512 ![] bcast_S_S64x4x2x512 (constant S_ .f32 0x3D3504F3#32)))
    (broadcastInDim S64x4x2x512 ![0, 1, 2, 3] bcast_S64x1x1x512_S64x4x2x512_0_1_2_3 (broadcastInDim S64x1x1x512 ![0, 3] bcast_S64x512_S64x1x1x512_0_3 (id (select mask (broadcastInDim S64x512 ![] bcast_S_S64x512 (constant S_ .f32 0xFF800000#32)) (broadcastInDim S64x512 ![] bcast_S_S64x512 (constant S_ .f32 0x00000000#32))))))

/-- The softmax of a score array along its last axis: `exp(s − max s) / Σ exp(s − max s)`. -/
def softmax (s : FVec F S64x4x2x512 .f32) : FVec F S64x4x2x512 .f32 :=
  Host.divf (Host.exp (subf s (broadcastInDim S64x4x2x512 ![0, 1, 2, 3] bcast_S64x4x2x1_S64x4x2x512_0_1_2_3 (broadcastInDim S64x4x2x1 ![0, 1, 2] bcast_S64x4x2_S64x4x2x1_0_1_2 (maximumf (broadcastInDim S64x4x2 ![] bcast_S_S64x4x2 (constant S_ .f32 0xFF800000#32)) (Host.reduce FloatOps.maximumf s (constant S_ .f32 0xFF800000#32) reducesTo_S64x4x2x512_S64x4x2_d3 h_S_))))))
    (broadcastInDim S64x4x2x512 ![0, 1, 2, 3] bcast_S64x4x2x1_S64x4x2x512_0_1_2_3 (broadcastInDim S64x4x2x1 ![0, 1, 2] bcast_S64x4x2_S64x4x2x1_0_1_2 (Host.reduceAdd (Host.exp (subf s (broadcastInDim S64x4x2x512 ![0, 1, 2, 3] bcast_S64x4x2x1_S64x4x2x512_0_1_2_3 (broadcastInDim S64x4x2x1 ![0, 1, 2] bcast_S64x4x2_S64x4x2x1_0_1_2 (maximumf (broadcastInDim S64x4x2 ![] bcast_S_S64x4x2 (constant S_ .f32 0xFF800000#32)) (Host.reduce FloatOps.maximumf s (constant S_ .f32 0xFF800000#32) reducesTo_S64x4x2x512_S64x4x2_d3 h_S_)))))) (constant S_ .f32 0x00000000#32) reducesTo_S64x4x2x512_S64x4x2_d3 h_S_)))

/-- The first result, the attended tokens `[64, 8, 512]`: the weights against the projected values, contracted over
    the history axis, the two head axes merged back. -/
def tokens (p : FVec F S64x4x2x512 .f32) (v : FVec F S64x512x4x512 .f32) : FVec F S64x8x512 .f32 :=
  shapeCast _ (Host.dotGeneral dot_S64x4x2x512_S64x4x512x512_S64x4x2x512_3_2_2_3_01_01 none p (transpose S64x4x512x512 [0, 2, 1, 3] v transposes_S64x512x4x512_S64x4x512x512_0_2_1_3)) shapeCasts_S64x4x2x512_S64x8x512

/-- The second result, the attention weights laid out `[64, 8, 1, 512]`. -/
def weights (p : FVec F S64x4x2x512 .f32) : FVec F S64x8x1x512 .f32 :=
  shapeCast _ p shapeCasts_S64x4x2x512_S64x8x1x512

/-- The attention weights from the three projections, the mask and the two norm weights. -/
def probs (q : FVec F S64x8x512 .f32) (k : FVec F S64x512x4x512 .f32) (mask : IVec S64x512 1) (w6 w7 : FVec F S512 .f32) : FVec F S64x4x2x512 .f32 :=
  softmax (scores (normQ q w6) (normK k w7) mask)

end Cert.ReferenceIdeal.Attn

end
-- ==== Proof.KTail.lean ====
/-
  The kernel program's host stretches, read back: its two results are the attention functions of `Tail.lean` applied
  to what its own three projections hold — the first pipeline's output array cut into `[64, 8, 512]`, and the two column
  halves of the second pipeline's output array cut into heads — and the operand arrays the two pipelines find are
  re-layings of the argument arrays. Generic in the float family: every step is the same composition on both sides.
-/
import proofs.«123326_j592705487400_1_alg».proof.Proof.Gen.KernelIdeal.Frame
import proofs.«123326_j592705487400_1_alg».proof.Proof.Tail
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo
open Cert.ReferenceIdeal.Attn (normQ normK scores softmax tokens weights probs)

variable {F : FTy → Type} [FloatOps F]
variable (m : (ℓ : Loc nD τ sig) → Buf (Elt F) ℓ) (ρ : Dev nD → PrngReg)

/-! ## The argument arrays at the segment boundaries the value is read at

No host operation and no pipeline writes an argument array, so at every boundary it holds its launch contents. -/

theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl

theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl

/-- An argument array after the first host stretch and the first pipeline. -/
theorem W2_arg (c : Dev nD) (b : Ref sig .tc) (hb : ∀ w, Pipeline.arrRef spec0 w ≠ b)
    (h0 : StableHlo.after hostOps0 (W0 m ρ c) (Proc.devRef .tc b) = W0 m ρ c (Proc.devRef .tc b)) :
    W2 m ρ c (Proc.devRef .tc b) = m ((c : Thread nD τ).loc b) :=
  (W2_of_ne m ρ c b hb).trans h0

theorem W2_arg1 (c : Dev nD) : W2 m ρ c (Proc.devRef .tc main_arg1) = m ((c : Thread nD τ).loc main_arg1) :=
  W2_arg m ρ c main_arg1 (by decide) (by after_results_simp <;> rfl)
theorem W2_arg2 (c : Dev nD) : W2 m ρ c (Proc.devRef .tc main_arg2) = m ((c : Thread nD τ).loc main_arg2) :=
  W2_arg m ρ c main_arg2 (by decide) (by after_results_simp <;> rfl)
theorem W2_arg4 (c : Dev nD) : W2 m ρ c (Proc.devRef .tc main_arg4) = m ((c : Thread nD τ).loc main_arg4) :=
  W2_arg m ρ c main_arg4 (by decide) (by after_results_simp <;> rfl)
theorem W2_arg5 (c : Dev nD) : W2 m ρ c (Proc.devRef .tc main_arg5) = m ((c : Thread nD τ).loc main_arg5) :=
  W2_arg m ρ c main_arg5 (by decide) (by after_results_simp <;> rfl)
theorem W2_arg6 (c : Dev nD) : W2 m ρ c (Proc.devRef .tc main_arg6) = m ((c : Thread nD τ).loc main_arg6) :=
  W2_arg m ρ c main_arg6 (by decide) (by after_results_simp <;> rfl)
theorem W2_arg7 (c : Dev nD) : W2 m ρ c (Proc.devRef .tc main_arg7) = m ((c : Thread nD τ).loc main_arg7) :=
  W2_arg m ρ c main_arg7 (by decide) (by after_results_simp <;> rfl)

/-- The mask and the key-norm weight after the second host stretch and the second pipeline. -/
theorem W4_arg2 (c : Dev nD) : W4 m ρ c (Proc.devRef .tc main_arg2) = m ((c : Thread nD τ).loc main_arg2) := by
  refine (W4_of_ne m ρ c main_arg2 (by decide)).trans ?_
  refine Eq.trans ?_ (W2_arg2 m ρ c)
  show StableHlo.after hostOps1 (W2 m ρ c) (Proc.devRef .tc main_arg2) = _
  after_results_simp <;> rfl
theorem W4_arg7 (c : Dev nD) : W4 m ρ c (Proc.devRef .tc main_arg7) = m ((c : Thread nD τ).loc main_arg7) := by
  refine (W4_of_ne m ρ c main_arg7 (by decide)).trans ?_
  refine Eq.trans ?_ (W2_arg7 m ρ c)
  show StableHlo.after hostOps1 (W2 m ρ c) (Proc.devRef .tc main_arg7) = _
  after_results_simp <;> rfl

/-! ## The operand arrays the two pipelines find -/

/-- The first pipeline's left operand: the target embeddings with batch and token axes merged. -/
theorem W1_v0 (c : Dev nD) : W1 m ρ c (Proc.devRef .tc main_v0)
    = shapeCast S512x512 (m ((c : Thread nD τ).loc main_arg0)) shapeCasts_S64x8x512_S512x512 := by
  show StableHlo.after hostOps0 (W0 m ρ c) (Proc.devRef .tc main_v0) = _
  after_results_simp <;> rfl

/-- The first pipeline's right operand: the query weights transposed. -/
theorem W1_v1 (c : Dev nD) : W1 m ρ c (Proc.devRef .tc main_v1)
    = transpose S512x512 [1, 0] (m ((c : Thread nD τ).loc main_arg3)) transposes_S512x512_S512x512_1_0 := by
  show StableHlo.after hostOps0 (W0 m ρ c) (Proc.devRef .tc main_v1) = _
  after_results_simp <;> rfl

/-- The second pipeline's left operand: the history embeddings with batch and position axes merged. -/
theorem W3_v20 (c : Dev nD) : W3 m ρ c (Proc.devRef .tc main_v20)
    = shapeCast S32768x512 (m ((c : Thread nD τ).loc main_arg1)) shapeCasts_S64x512x512_S32768x512 := by
  rw [← W2_arg1 m ρ c]
  show StableHlo.after hostOps1 (W2 m ρ c) (Proc.devRef .tc main_v20) = _
  after_results_simp <;> rfl

/-- The second pipeline's right operand: the key weights stacked on the value weights, transposed. -/
theorem W3_v21 (c : Dev nD) : W3 m ρ c (Proc.devRef .tc main_v21)
    = transpose S512x4096 [1, 0] (concatenate S4096x512 0 [⟨S2048x512, m ((c : Thread nD τ).loc main_arg4)⟩, ⟨S2048x512, m ((c : Thread nD τ).loc main_arg5)⟩] concatenates_S2048x512_S2048x512_S4096x512_d0) transposes_S4096x512_S512x4096_1_0 := by
  rw [← W2_arg4 m ρ c, ← W2_arg5 m ρ c]
  show StableHlo.after hostOps1 (W2 m ρ c) (Proc.devRef .tc main_v21) = _
  after_results_simp <;> rfl

/-! ## The kernel's three projections, as the host stretches cut them out of the pipelines' output arrays -/

/-- The projected queries: the first pipeline's output array `[512, 512]` cut back into `[64, 8, 512]`. -/
def qK (c : Dev nD) : FVec F S64x8x512 .f32 :=
  shapeCast S64x8x512 (W2 m ρ c (Proc.devRef .tc main_v2)) shapeCasts_S512x512_S64x8x512

/-- The projected keys: the first 2048 columns of the second pipeline's output array, split into 4 heads. -/
def kK (c : Dev nD) : FVec F S64x512x4x512 .f32 :=
  shapeCast S64x512x4x512 (extractStridedSlice S64x512x2048 ![0, 0, 0] (shapeCast S64x512x4096 (W4 m ρ c (Proc.devRef .tc main_v22)) shapeCasts_S32768x4096_S64x512x4096) slices_S64x512x4096_S64x512x2048_0_0_0) shapeCasts_S64x512x2048_S64x512x4x512

/-- The projected values: the last 2048 columns of the same array, split into 4 heads. -/
def vK (c : Dev nD) : FVec F S64x512x4x512 .f32 :=
  shapeCast S64x512x4x512 (extractStridedSlice S64x512x2048 ![0, 0, 2048] (shapeCast S64x512x4096 (W4 m ρ c (Proc.devRef .tc main_v22)) shapeCasts_S32768x4096_S64x512x4096) slices_S64x512x4096_S64x512x2048_0_0_2048) shapeCasts_S64x512x2048_S64x512x4x512

/-! ## The host stretches between and after the pipelines -/

/-- The normalised queries, computed between the two pipelines. -/
theorem W3_v18 (c : Dev nD) : W3 m ρ c (Proc.devRef .tc main_v18) = normQ (qK m ρ c) (m ((c : Thread nD τ).loc main_arg6)) := by
  rw [← W2_arg6 m ρ c]
  show StableHlo.after hostOps1 (W2 m ρ c) (Proc.devRef .tc main_v18) = _
  after_results_simp <;> rfl

/-- The first result over the boundary contents after the second pipeline: the last three host stretches are the
    key normalisation, the scores, the softmax and the weighted sum of the values. -/
theorem W7_v66_raw (c : Dev nD) : W7 m ρ c (Proc.devRef .tc main_v66)
    = tokens (softmax (scores (W4 m ρ c (Proc.devRef .tc main_v18)) (normK (kK m ρ c) (W4 m ρ c (Proc.devRef .tc main_arg7))) (W4 m ρ c (Proc.devRef .tc main_arg2)))) (vK m ρ c) := by
  show StableHlo.after hostOps2_2 (StableHlo.after hostOps2_1 (StableHlo.after hostOps2 (W4 m ρ c))) (Proc.devRef .tc main_v66) = _
  after_results_simp <;> rfl

/-- The second result likewise: the softmax weights, re-laid. -/
theorem W7_v67_raw (c : Dev nD) : W7 m ρ c (Proc.devRef .tc main_v67)
    = weights (softmax (scores (W4 m ρ c (Proc.devRef .tc main_v18)) (normK (kK m ρ c) (W4 m ρ c (Proc.devRef .tc main_arg7))) (W4 m ρ c (Proc.devRef .tc main_arg2)))) := by
  show StableHlo.after hostOps2_2 (StableHlo.after hostOps2_1 (StableHlo.after hostOps2 (W4 m ρ c))) (Proc.devRef .tc main_v67) = _
  after_results_simp <;> rfl

/-- The normalised queries are not an array of the second pipeline: they pass it unchanged. -/
theorem W4_v18 (c : Dev nD) : W4 m ρ c (Proc.devRef .tc main_v18) = normQ (qK m ρ c) (m ((c : Thread nD τ).loc main_arg6)) :=
  (W4_of_ne m ρ c main_v18 (by decide)).trans (W3_v18 m ρ c)

/-! ## The two results -/

/-- THE FIRST RESULT of the kernel program: the attended tokens of its own three projections. -/
theorem result0 (c : Dev nD) : W7 m ρ c (Proc.devRef .tc main_v66)
    = tokens (probs (qK m ρ c) (kK m ρ c) (m ((c : Thread nD τ).loc main_arg2)) (m ((c : Thread nD τ).loc main_arg6)) (m ((c : Thread nD τ).loc main_arg7))) (vK m ρ c) := by
  rw [W7_v66_raw, W4_v18, W4_arg7, W4_arg2]
  rfl

/-- THE SECOND RESULT: the attention weights of its own query and key projections. -/
theorem result1 (c : Dev nD) : W7 m ρ c (Proc.devRef .tc main_v67)
    = weights (probs (qK m ρ c) (kK m ρ c) (m ((c : Thread nD τ).loc main_arg2)) (m ((c : Thread nD τ).loc main_arg6)) (m ((c : Thread nD τ).loc main_arg7))) := by
  rw [W7_v67_raw, W4_v18, W4_arg7, W4_arg2]
  rfl

end Cert.KernelIdeal.HostValue

end
-- ==== Proof.MatmulSpec.lean ====
/-
  The product of two matrices of extended reals, index by index: what a `tpu.matmul` into a zero accumulator computes
  at the ideal instance, and what a host `dot_general` with one contracted axis computes there.
-/
import Idealize.ShloMosaic.Lib.ValueIdx
import Idealize.ShloMosaic.PureOps.Ideal

noncomputable section

namespace Cert.Spec

open Idealize.ShloMosaic

/-- `(x · y)[r, e] = Σ_k x[r, k] · y[k, e]` for `x : [M, K]`, `y : [K, N]`, the sum over `Fin K` in the extended reals. -/
def mm {M K N : Nat} (x : (⟨2, ![M, K]⟩ : Shape).Idx → EReal) (y : (⟨2, ![K, N]⟩ : Shape).Idx → EReal) :
    (⟨2, ![M, N]⟩ : Shape).Idx → EReal :=
  fun i => ∑ k : Fin K, x (ValueIdx.ix2 (⟨(i 0).val, ValueIdx.idx2_lt0 i⟩ : Fin M) k) * y (ValueIdx.ix2 k (⟨(i 1).val, ValueIdx.idx2_lt1 i⟩ : Fin N))

theorem mm_apply {M K N : Nat} (x : (⟨2, ![M, K]⟩ : Shape).Idx → EReal) (y : (⟨2, ![K, N]⟩ : Shape).Idx → EReal)
    (r : Fin M) (e : Fin N) :
    mm x y (ValueIdx.ix2 r e) = ∑ k : Fin K, x (ValueIdx.ix2 r k) * y (ValueIdx.ix2 k e) := rfl

end Cert.Spec

end
-- ==== Proof.MatmulValue.lean ====
/-
  What each of the two pipelined matrix-product kernels leaves in its output array, at the ideal instance, as ONE
  function of the two operand arrays the region finds: the matrix product `Cert.Spec.mm`.
-/
import proofs.«123326_j592705487400_1_alg».proof.Proof.Gen.KernelIdeal.Frame
import proofs.«123326_j592705487400_1_alg».proof.Proof.MatmulSpec
import Idealize.ShloMosaic.Lib.Pipeline.Value
import Idealize.ShloMosaic.Lib.ValueIdx
import Idealize.ShloMosaic.PureOps.Ideal.Laws

noncomputable section

namespace Cert.KernelIdeal.MatmulValue

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! # Region 0: the query projection's product -/

/-- The offsets of a block that starts at the array's origin. -/
theorem zero_offsets0 : (![0, 0] : Fin 2 → Nat) = fun _ => 0 := funext fun a => by fin_cases a <;> rfl

/-! ## Region 0's matrix product at an index -/

theorem lhs_mm0_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_mm0_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_mm0_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_mm0_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- Region 0's body computes, entry by entry, the product of the two blocks it loads: the casts to the same shape and
    the changes of float format are the identity, and the accumulator is zero. -/
theorem pay0_eq_mm (x0 x1 : Vec Ideal S512x512 .f32) :
    k0_pay1 (F := Ideal) x0 x1 = Cert.Spec.mm (M := 512) (K := 512) (N := 512) x0 x1 := by
  funext j
  obtain ⟨r, e, rfl⟩ : ∃ (r : Fin 512) (e : Fin 512), j = ValueIdx.ix2 r e := ⟨j 0, j 1, ValueIdx.eq_ix2 j⟩
  rw [Cert.Spec.mm_apply]
  unfold k0_pay1
  show FloatOps.matmul (F := Ideal) dot_S512x512_S512x512_S512x512_1_0_0_1_n_n none
      (shapeCast S512x512 x0 shapeCasts_S512x512_S512x512) (shapeCast S512x512 x1 shapeCasts_S512x512_S512x512)
      (constant (F := Ideal) S512x512 .f32 0x00000000#32) (ValueIdx.ix2 r e) = _
  rw [shapeCast_self, shapeCast_self, Ideal.matmul_constant_zero_apply,
    ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ValueIdx.ix2 r e) ((ValueIdx.contrEquiv1 dot_S512x512_S512x512_S512x512_1_0_0_1_n_n 512 rfl rfl).symm k) = ValueIdx.ix2 r k := funext fun a => Fin.ext (by
    match a with
    | ⟨0, _⟩ => exact lhs_mm0_0 _ _
    | ⟨1, _⟩ => exact (lhs_mm0_1 _ _).trans hk)
  have er : dot_S512x512_S512x512_S512x512_1_0_0_1_n_n.rhsIdx (ValueIdx.ix2 r e) ((ValueIdx.contrEquiv1 dot_S512x512_S512x512_S512x512_1_0_0_1_n_n 512 rfl rfl).symm k) = ValueIdx.ix2 k e := funext fun a => Fin.ext (by
    match a with
    | ⟨0, _⟩ => exact (rhs_mm0_0 _ _).trans hk
    | ⟨1, _⟩ => exact rhs_mm0_1 _ _)
  rw [el, er]

/-! ## From the one block to the array -/

/-- The printed index maps, decided over the grid: at the one point every window's block sits at the array's origin. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- What the point writes back is its block of the product of the two operand arrays as the region finds them. -/
theorem flushed0_eq (c : Dev nD) (t : Fin cfg0.N) :
    (dat0 (F := Ideal) V c).flushed 2 t = ((cfg0.win 2).blk t).view.read (Elt Ideal)
      (Cert.Spec.mm (M := 512) (K := 512) (N := 512) (V c main_v0) (V c main_v1)) := by
  show (cfg0.win 2).cut (grid0.coords t) ((dat0 V c).after 2 t) = _
  rw [after0_2]
  unfold out0_2
  rw [View.canon_unit_zero zero_offsets0]
  simp only [View.ld_unit_zero (S := S512x512) zero_offsets0]
  obtain ⟨e00, e01, e10, e11, e20, e21⟩ := idx_facts0 t
  -- each window's block is the whole array: an index inside the block is the same index of the array
  have h0 : ∀ y : S512x512.Idx, ((cfg0.win 0).blk t).view.emb y = y := fun y => by
    funext a; apply Fin.ext
    match a with
    | ⟨0, _⟩ => show win0_0.index t (0 : Fin 2) * 512 + 1 * (y 0).val = (y 0).val; omega
    | ⟨1, _⟩ => show win0_0.index t (1 : Fin 2) * 512 + 1 * (y 1).val = (y 1).val; omega
  have h1 : ∀ y : S512x512.Idx, ((cfg0.win 1).blk t).view.emb y = y := fun y => by
    funext a; apply Fin.ext
    match a with
    | ⟨0, _⟩ => show win0_1.index t (0 : Fin 2) * 512 + 1 * (y 0).val = (y 0).val; omega
    | ⟨1, _⟩ => show win0_1.index t (1 : Fin 2) * 512 + 1 * (y 1).val = (y 1).val; omega
  have h2 : ∀ y : S512x512.Idx, ((cfg0.win 2).blk t).view.emb y = y := fun y => by
    funext a; apply Fin.ext
    match a with
    | ⟨0, _⟩ => show win0_2.index t (0 : Fin 2) * 512 + 1 * (y 0).val = (y 0).val; omega
    | ⟨1, _⟩ => show win0_2.index t (1 : Fin 2) * 512 + 1 * (y 1).val = (y 1).val; omega
  have b0 : (iblk0 V c 0 t : Vec Ideal S512x512 .f32) = V c main_v0 := funext fun y => by
    show V c main_v0 (((cfg0.win 0).blk t).view.emb y) = V c main_v0 y
    exact congrArg (V c main_v0) (h0 y)
  have b1 : (iblk0 V c 1 t : Vec Ideal S512x512 .f32) = V c main_v1 := funext fun y => by
    show V c main_v1 (((cfg0.win 1).blk t).view.emb y) = V c main_v1 y
    exact congrArg (V c main_v1) (h1 y)
  refine (pay0_eq_mm (iblk0 V c 0 t) (iblk0 V c 1 t)).trans ?_
  funext j
  show Cert.Spec.mm (M := 512) (K := 512) (N := 512) (iblk0 V c 0 t) (iblk0 V c 1 t) j
    = Cert.Spec.mm (M := 512) (K := 512) (N := 512) (V c main_v0) (V c main_v1) (((cfg0.win 2).blk t).view.emb j)
  exact (congrArg₂ (fun p q => Cert.Spec.mm (M := 512) (K := 512) (N := 512) p q j) b0 b1).trans
    (congrArg (Cert.Spec.mm (M := 512) (K := 512) (N := 512) (V c main_v0) (V c main_v1)) (h2 j).symm)

/-- An index of the array is in the point's block iff each coordinate is in the block's range on its axis. -/
theorem mem_blk0 (t : Fin cfg0.N) (i : S512x512.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v2).slice (win0_2.rect t)).set ↔ _
  rw [View.set_slice_whole, Rect.mem_set_unit]
  exact Iff.rfl

/-- Every index of the output array is in the one point's block. -/
theorem covered0 (i : S512x512.Idx) :
    ∃ t : Fin cfg0.N, (cfg0.win 2).flush t = true ∧ i ∈ ((cfg0.win 2).blk t).view.set := by
  refine ⟨t0_0, flush0_2 t0_0, ?_⟩
  obtain ⟨e00, e01, e10, e11, e20, e21⟩ := idx_facts0 t0_0
  have hi0 : (i 0).val < 512 := (i 0).isLt
  have hi1 : (i 1).val < 512 := (i 1).isLt
  rw [mem_blk0]
  intro a
  match a with
  | ⟨0, _⟩ => show win0_2.index t0_0 (0 : Fin 2) * 512 ≤ (i 0).val ∧ (i 0).val < win0_2.index t0_0 (0 : Fin 2) * 512 + 512; omega
  | ⟨1, _⟩ => show win0_2.index t0_0 (1 : Fin 2) * 512 ≤ (i 1).val ∧ (i 1).val < win0_2.index t0_0 (1 : Fin 2) * 512 + 512; omega

/-- Region 0 (one grid point, every block the whole array): the output array ends at the product of the two operand
    arrays. -/
theorem region0_array (c : Dev nD) :
    (dat0 (F := Ideal) V c).arrAt 2 cfg0.N = Cert.Spec.mm (M := 512) (K := 512) (N := 512) (V c main_v0) (V c main_v1) :=
  (dat0 V c).arrAt_eq_of_cover 2 (Cert.Spec.mm (M := 512) (K := 512) (N := 512) (V c main_v0) (V c main_v1))
    (fun t _ => flushed0_eq V c t) covered0

/-! # Region 1: the key and value projections' product -/

/-! ## Region 1: the body's product at an index

  The body multiplies a [512, 512] block of rows of the left operand by the whole [512, 4096] right operand into a zero
  accumulator. Both operands pass a cast to their own shape and a narrowing to bf16, which on extended reals changes
  nothing; so the value at row `r`, column `e` of the block is `Σ_k x0[r, k] · x1[k, e]`. -/

/-- The left operand is read at the output's row … -/
theorem lhs_row1 (i : S512x4096.Idx) (q : dot_S512x512_S512x4096_S512x4096_1_0_0_1_n_n.contr.Idx) :
    (dot_S512x512_S512x4096_S512x4096_1_0_0_1_n_n.lhsIdx i q 0).val = (i 0).val := by
  unfold DotDims.lhsIdx
  rw [dif_neg (show ¬(0 : Fin S512x512.rank) ∈ dot_S512x512_S512x4096_S512x4096_1_0_0_1_n_n.lhsBatch by decide), dif_pos (show (0 : Fin S512x512.rank) ∈ dot_S512x512_S512x4096_S512x4096_1_0_0_1_n_n.lhsNonContracting by decide)]
  rfl
/-- … and, on its second axis, at the contracted index; -/
theorem lhs_contr1 (i : S512x4096.Idx) (q : dot_S512x512_S512x4096_S512x4096_1_0_0_1_n_n.contr.Idx) :
    (dot_S512x512_S512x4096_S512x4096_1_0_0_1_n_n.lhsIdx i q 1).val = (q ⟨0, by decide⟩).val :=
  dot_S512x512_S512x4096_S512x4096_1_0_0_1_n_n.lhsIdx_val_of_single rfl i q
/-- the right operand, on its first axis, at the contracted index … -/
theorem rhs_contr1 (i : S512x4096.Idx) (q : dot_S512x512_S512x4096_S512x4096_1_0_0_1_n_n.contr.Idx) :
    (dot_S512x512_S512x4096_S512x4096_1_0_0_1_n_n.rhsIdx i q 0).val = (q ⟨0, by decide⟩).val :=
  dot_S512x512_S512x4096_S512x4096_1_0_0_1_n_n.rhsIdx_val_of_single rfl i q
/-- … and at the output's column. -/
theorem rhs_col1 (i : S512x4096.Idx) (q : dot_S512x512_S512x4096_S512x4096_1_0_0_1_n_n.contr.Idx) :
    (dot_S512x512_S512x4096_S512x4096_1_0_0_1_n_n.rhsIdx i q 1).val = (i 1).val := by
  unfold DotDims.rhsIdx
  rw [dif_neg (show ¬(1 : Fin S512x4096.rank) ∈ dot_S512x512_S512x4096_S512x4096_1_0_0_1_n_n.rhsBatch by decide), dif_pos (show (1 : Fin S512x4096.rank) ∈ dot_S512x512_S512x4096_S512x4096_1_0_0_1_n_n.rhsNonContracting by decide)]
  rfl

/-- The body's value at row `r`, column `e` of the block: the sum over the contracted axis of the products of the
    left block's row `r` with the right operand's column `e`. -/
theorem k1_product_apply (x0 : Vec Ideal S512x512 .f32) (x1 : Vec Ideal S512x4096 .f32) (r : Fin 512) (e : Fin 4096) :
    k1_pay1 (F := Ideal) x0 x1 (ValueIdx.ix2 r e) = ∑ k : Fin 512, x0 (ValueIdx.ix2 r k) * x1 (ValueIdx.ix2 k e) := by
  unfold k1_pay1
  simp only [shapeCast_self]
  show FloatOps.matmul dot_S512x512_S512x4096_S512x4096_1_0_0_1_n_n none _ _ (constant (F := Ideal) S512x4096 .f32 0x00000000#32) (ValueIdx.ix2 r e) = _
  rw [Ideal.matmul_constant_zero_apply, ← Equiv.sum_comp (ValueIdx.contrEquiv1 dot_S512x512_S512x4096_S512x4096_1_0_0_1_n_n 512 rfl rfl).symm]
  refine Finset.sum_congr rfl fun k _ => ?_
  have hk := ValueIdx.contrEquiv1_symm_val dot_S512x512_S512x4096_S512x4096_1_0_0_1_n_n 512 rfl rfl k
  have el : dot_S512x512_S512x4096_S512x4096_1_0_0_1_n_n.lhsIdx (ValueIdx.ix2 r e) ((ValueIdx.contrEquiv1 dot_S512x512_S512x4096_S512x4096_1_0_0_1_n_n 512 rfl rfl).symm k) = ValueIdx.ix2 r k := funext fun a => Fin.ext (by
    match a with
    | ⟨0, _⟩ => exact lhs_row1 _ _
    | ⟨1, _⟩ => exact (lhs_contr1 _ _).trans hk)
  have er : dot_S512x512_S512x4096_S512x4096_1_0_0_1_n_n.rhsIdx (ValueIdx.ix2 r e) ((ValueIdx.contrEquiv1 dot_S512x512_S512x4096_S512x4096_1_0_0_1_n_n 512 rfl rfl).symm k) = ValueIdx.ix2 k e := funext fun a => Fin.ext (by
    match a with
    | ⟨0, _⟩ => exact (rhs_contr1 _ _).trans hk
    | ⟨1, _⟩ => exact rhs_col1 _ _)
  rw [el, er]
  rfl

/-- The same at an index of the block given whole: its row and column are the index's two coordinates. -/
theorem k1_product_at (x0 : Vec Ideal S512x512 .f32) (x1 : Vec Ideal S512x4096 .f32) (j : S512x4096.Idx) :
    k1_pay1 (F := Ideal) x0 x1 j = ∑ k : Fin 512, x0 (ValueIdx.ix2 (⟨(j 0).val, ValueIdx.idx2_lt0 j⟩ : Fin 512) k) * x1 (ValueIdx.ix2 k (⟨(j 1).val, ValueIdx.idx2_lt1 j⟩ : Fin 4096)) := by
  obtain ⟨r, e, rfl⟩ : ∃ (r : Fin 512) (e : Fin 4096), j = ValueIdx.ix2 r e := ⟨j 0, j 1, ValueIdx.eq_ix2 j⟩
  exact k1_product_apply x0 x1 r e

/-! ## Region 1: from the row blocks to the array

  Point `t` of the 64 takes rows `512 t … 512 t + 511` of the left operand (block index `(t, 0)`), the whole right
  operand (block index `(0, 0)`), and writes back the same rows of the output (block index `(t, 0)`). A coordinate of
  a block inside its array is the block index times the block size plus the coordinate inside the block. -/

/-- The body's one store starts at the origin of its staging buffer. -/
theorem origin_zero : (![0, 0] : Fin 2 → Nat) = fun _ => 0 := funext fun a => by fin_cases a <;> rfl

/-- The three windows' block indices at every point of the grid, decided over its 64 points. -/
theorem blockIdx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is block `t` of the product of the two operand arrays as the region finds them: row
    `512 t + p` of the product sums the left array's row `512 t + p`, which is row `p` of the left block at `t`,
    against the right array's column, which is the right block's. -/
theorem writtenBack1_eq (c : Dev nD) (t : Fin cfg1.N) :
    (dat1 (F := Ideal) V c).flushed 2 t = ((cfg1.win 2).blk t).view.read (Elt Ideal) (Cert.Spec.mm (M := 32768) (K := 512) (N := 4096) (V c main_v20) (V c main_v21)) := by
  show (cfg1.win 2).cut (grid1.coords t) ((dat1 V c).after 2 t) = _
  rw [after1_2]
  unfold out1_2
  rw [View.canon_unit_zero origin_zero]
  simp only [View.ld_unit_zero (S := S512x512) origin_zero, View.ld_unit_zero (S := S512x4096) origin_zero]
  funext j
  show k1_pay1 (F := Ideal) (iblk1 V c 0 t) (iblk1 V c 1 t) j = Cert.Spec.mm (M := 32768) (K := 512) (N := 4096) (V c main_v20) (V c main_v21) (((cfg1.win 2).blk t).view.emb j)
  refine (k1_product_at _ _ j).trans ?_
  obtain ⟨e0, e1, e2, e3, e4, e5⟩ := blockIdx1 t
  unfold Cert.Spec.mm
  refine Finset.sum_congr rfl fun k _ => ?_
  have hj0 : (j 0).val < 512 := (j 0).isLt
  have hj1 : (j 1).val < 4096 := (j 1).isLt
  -- the left block's entry (p, k) is the left array's entry (512 t + p, k)
  have hl : iblk1 V c 0 t (ValueIdx.ix2 (⟨(j 0).val, ValueIdx.idx2_lt0 j⟩ : Fin 512) k)
      = V c main_v20 (ValueIdx.ix2 (⟨((((cfg1.win 2).blk t).view.emb j) 0).val, ValueIdx.idx2_lt0 _⟩ : Fin 32768) k) := by
    show V c main_v20 (((cfg1.win 0).blk t).view.emb (ValueIdx.ix2 (⟨(j 0).val, ValueIdx.idx2_lt0 j⟩ : Fin 512) k)) = _
    refine congrArg (V c main_v20) ?_
    funext a; apply Fin.ext
    match a with
    | ⟨0, _⟩ => show win1_0.index t (0 : Fin 2) * 512 + 1 * (j 0).val = win1_2.index t (0 : Fin 2) * 512 + 1 * (j 0).val; omega
    | ⟨1, _⟩ => show win1_0.index t (1 : Fin 2) * 512 + 1 * k.val = k.val; omega
  -- the right block's entry (k, q) is the right array's entry (k, q)
  have hr : iblk1 V c 1 t (ValueIdx.ix2 k (⟨(j 1).val, ValueIdx.idx2_lt1 j⟩ : Fin 4096))
      = V c main_v21 (ValueIdx.ix2 k (⟨((((cfg1.win 2).blk t).view.emb j) 1).val, ValueIdx.idx2_lt1 _⟩ : Fin 4096)) := by
    show V c main_v21 (((cfg1.win 1).blk t).view.emb (ValueIdx.ix2 k (⟨(j 1).val, ValueIdx.idx2_lt1 j⟩ : Fin 4096))) = _
    refine congrArg (V c main_v21) ?_
    funext a; apply Fin.ext
    match a with
    | ⟨0, _⟩ => show win1_1.index t (0 : Fin 2) * 512 + 1 * k.val = k.val; omega
    | ⟨1, _⟩ => show win1_1.index t (1 : Fin 2) * 4096 + 1 * (j 1).val = win1_2.index t (1 : Fin 2) * 4096 + 1 * (j 1).val; omega
  exact congrArg₂ (· * ·) hl hr

/-- An index of the output array is in point `t`'s block iff each coordinate is in the block's range on its axis. -/
theorem mem_rows1 (t : Fin cfg1.N) (i : S32768x4096.Idx) :
    i ∈ ((cfg1.win 2).blk t).view.set ↔ ∀ a : Fin 2, win1_2.index t a * S512x4096.size a ≤ (i a).val ∧ (i a).val < win1_2.index t a * S512x4096.size a + S512x4096.size a := by
  show i ∈ ((View.whole main_v22).slice (win1_2.rect t)).set ↔ _
  rw [View.set_slice_whole, Rect.mem_set_unit]
  exact Iff.rfl

/-- The 64 row blocks tile the output: row `r` lies in the block of point `r / 512`, which is written back. -/
theorem rows_cover1 (i : S32768x4096.Idx) :
    ∃ t : Fin cfg1.N, (cfg1.win 2).flush t = true ∧ i ∈ ((cfg1.win 2).blk t).view.set := by
  have hi0 : (i 0).val < 32768 := (i 0).isLt
  have hi1 : (i 1).val < 4096 := (i 1).isLt
  have ht : (i 0).val / 512 < cfg1.N := by show (i 0).val / 512 < grid1.N; rw [N_1]; omega
  obtain ⟨e0, e1, e2, e3, e4, e5⟩ := blockIdx1 ⟨(i 0).val / 512, ht⟩
  have q0 : win1_2.index ⟨(i 0).val / 512, ht⟩ (0 : Fin 2) = (i 0).val / 512 := e4
  refine ⟨⟨(i 0).val / 512, ht⟩, flush1_2 _, ?_⟩
  rw [mem_rows1]
  intro a
  match a with
  | ⟨0, _⟩ => show win1_2.index ⟨(i 0).val / 512, ht⟩ (0 : Fin 2) * 512 ≤ (i 0).val ∧ (i 0).val < win1_2.index ⟨(i 0).val / 512, ht⟩ (0 : Fin 2) * 512 + 512; omega
  | ⟨1, _⟩ => show win1_2.index ⟨(i 0).val / 512, ht⟩ (1 : Fin 2) * 4096 ≤ (i 1).val ∧ (i 1).val < win1_2.index ⟨(i 0).val / 512, ht⟩ (1 : Fin 2) * 4096 + 4096; omega

/-- Region 1 (64 grid points; point `t` takes rows `512 t … 512 t + 511` of the left operand, the whole right operand,
    and writes the same rows of the output): the output array ends at the product of the two operand arrays. -/
theorem region1_array (c : Dev nD) :
    (dat1 (F := Ideal) V c).arrAt 2 cfg1.N = Cert.Spec.mm (M := 32768) (K := 512) (N := 4096) (V c main_v20) (V c main_v21) := by
  exact (dat1 V c).arrAt_eq_of_cover 2 _ (fun t _ => writtenBack1_eq V c t) (fun i => rows_cover1 i)

end Cert.KernelIdeal.MatmulValue

end
-- ==== Proof.RefTail.lean ====
/-
  The reference's two results are the attention functions of `Tail.lean` applied to its three projections
  (`dot_general`s of the inputs against the projection weights, the key and value projections split into heads).
-/
import proofs.«123326_j592705487400_1_alg».proof.Proof.Gen.ReferenceIdeal.Run
import proofs.«123326_j592705487400_1_alg».proof.Proof.Tail

noncomputable section

namespace Cert.ReferenceIdeal.Attn

open Cert.ReferenceIdeal Cert.ReferenceIdeal.Gen Cert.ReferenceIdeal.Value Idealize.ShloMosaic Idealize.ShloMosaic.TcCoe Idealize.SL.Sem

variable {F : FTy → Type} [FloatOps F]

/-- The reference's query projection: `q[b, t, e] = Σ_d target[b, t, d] · Wq[e, d]`. -/
def refQ (x0 : FVec F S64x8x512 .f32) (w : FVec F S512x512 .f32) : FVec F S64x8x512 .f32 :=
  Host.dotGeneral dot_S64x8x512_S512x512_S64x8x512_2_1_01_0_n_n none x0 w

/-- The reference's key (or value) projection, split into 4 heads of 512 features:
    `k[b, s, n, d] = Σ_j history[b, s, j] · W[512 n + d, j]`. -/
def refKV (x1 : FVec F S64x512x512 .f32) (w : FVec F S2048x512 .f32) : FVec F S64x512x4x512 .f32 :=
  shapeCast _ (Host.dotGeneral dot_S64x512x512_S2048x512_S64x512x2048_2_1_01_0_n_n none x1 w) shapeCasts_S64x512x2048_S64x512x4x512

set_option maxRecDepth 8192 in
theorem res_out0_eq (m : (ℓ : Loc nD τ sig) → Buf (Elt F) ℓ) (c : Dev nD) :
    res_out0 m c = tokens (probs (refQ (m ((c.tc : Thread nD τ).loc main_arg0)) (m ((c.tc : Thread nD τ).loc main_arg3)))
        (refKV (m ((c.tc : Thread nD τ).loc main_arg1)) (m ((c.tc : Thread nD τ).loc main_arg4)))
        (m ((c.tc : Thread nD τ).loc main_arg2)) (m ((c.tc : Thread nD τ).loc main_arg6)) (m ((c.tc : Thread nD τ).loc main_arg7)))
      (refKV (m ((c.tc : Thread nD τ).loc main_arg1)) (m ((c.tc : Thread nD τ).loc main_arg5))) := by
  show res_main_v58 m c = _
  unfold res_main_v58 tokens probs softmax scores normQ normK refQ refKV
  rfl

set_option maxRecDepth 8192 in
theorem res_out1_eq (m : (ℓ : Loc nD τ sig) → Buf (Elt F) ℓ) (c : Dev nD) :
    res_out1 m c = weights (probs (refQ (m ((c.tc : Thread nD τ).loc main_arg0)) (m ((c.tc : Thread nD τ).loc main_arg3)))
        (refKV (m ((c.tc : Thread nD τ).loc main_arg1)) (m ((c.tc : Thread nD τ).loc main_arg4)))
        (m ((c.tc : Thread nD τ).loc main_arg2)) (m ((c.tc : Thread nD τ).loc main_arg6)) (m ((c.tc : Thread nD τ).loc main_arg7))) := by
  show res_main_v59 m c = _
  unfold res_main_v59 weights probs softmax scores normQ normK refQ refKV
  rfl

end Cert.ReferenceIdeal.Attn

end
-- ==== Proof.Leaves.lean ====
/-
  The kernel's three projections are the reference's. The kernel flattens the batch and position axes, multiplies by
  the TRANSPOSED weight matrix (for keys and values: by the transpose of the two weight matrices stacked), and cuts the
  product back into shape; the reference contracts the feature axis of the input against the second axis of the weights
  directly. Index by index both are `Σ_j x[…, j] · W[e, j]`.
-/
import proofs.«123326_j592705487400_1_alg».proof.Proof.Gen.KernelIdeal
import proofs.«123326_j592705487400_1_alg».proof.Proof.Gen.ReferenceIdeal.Read
import proofs.«123326_j592705487400_1_alg».proof.Proof.MatmulSpec
import proofs.«123326_j592705487400_1_alg».proof.Proof.RefTail
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.SL.Sem
open Cert.KernelIdeal Cert.KernelIdeal.Gen

/-- Queries: `reshape(reshape(x) · Wqᵀ)[b, t, e] = Σ_j x[b, t, j] · Wq[e, j]`. -/
theorem q_proj (a0 : FVec Ideal S64x8x512 .f32) (a3 : FVec Ideal S512x512 .f32) :
    shapeCast S64x8x512 (Cert.Spec.mm (M := 512) (K := 512) (N := 512)
        (shapeCast S512x512 a0 shapeCasts_S64x8x512_S512x512)
        (transpose S512x512 [1, 0] a3 transposes_S512x512_S512x512_1_0)) shapeCasts_S512x512_S64x8x512
      = Cert.ReferenceIdeal.Attn.refQ a0 a3 := by
  funext i
  obtain ⟨b, t, e, rfl⟩ : ∃ (b : Fin 64) (t : Fin 8) (e : Fin 512), i = ValueIdx.ix3 b t e := ⟨i 0, i 1, i 2, ValueIdx.eq_ix3 i⟩
  rw [show Cert.ReferenceIdeal.Attn.refQ a0 a3 = Cert.ReferenceIdeal.Read.val_main_v0 (F := Ideal) a0 a3 from rfl,
    Cert.ReferenceIdeal.Read.val_main_v0_apply]
  have hr : b.val * 8 + t.val < 512 := by omega
  refine (shapeCast_apply _ shapeCasts_S512x512_S64x8x512 _ (ValueIdx.ix2 (⟨b.val * 8 + t.val, hr⟩ : Fin 512) e) ?_).trans ?_
  · rw [Shape.rowMajor_val_two, Shape.rowMajor_val_three]
    show (b.val * 8 + t.val) * 512 + e.val = (b.val * 8 + t.val) * 512 + e.val
    rfl
  rw [Cert.Spec.mm_apply]
  refine Finset.sum_congr rfl fun k _ => ?_
  refine congrArg₂ (· * ·) ?_ ?_
  · refine (shapeCast_apply a0 shapeCasts_S64x8x512_S512x512 _ (ValueIdx.ix3 b t k) ?_).trans ?_
    · rw [Shape.rowMajor_val_two, Shape.rowMajor_val_three]
      show (b.val * 8 + t.val) * 512 + k.val = (b.val * 8 + t.val) * 512 + k.val
      rfl
    · exact congrArg a0 (funext fun a => Fin.ext (by match a with | ⟨0, _⟩ => rfl | ⟨1, _⟩ => rfl | ⟨2, _⟩ => rfl))
  · refine (transpose_apply [1, 0] a3 transposes_S512x512_S512x512_1_0 _ (ValueIdx.ix2 e k) (fun c => match c with | ⟨0, _⟩ => rfl | ⟨1, _⟩ => rfl)).trans ?_
    exact congrArg a3 (funext fun a => Fin.ext (by match a with | ⟨0, _⟩ => rfl | ⟨1, _⟩ => rfl))

/-- Keys: the first 2048 columns of `reshape(h) · [Wk; Wv]ᵀ`, split into heads, are `Σ_j h[b, s, j] · Wk[512 n + d, j]`. -/
theorem k_proj (a1 : FVec Ideal S64x512x512 .f32) (a4 a5 : FVec Ideal S2048x512 .f32) :
    shapeCast S64x512x4x512 (extractStridedSlice S64x512x2048 ![0, 0, 0]
        (shapeCast S64x512x4096 (Cert.Spec.mm (M := 32768) (K := 512) (N := 4096)
          (shapeCast S32768x512 a1 shapeCasts_S64x512x512_S32768x512)
          (transpose S512x4096 [1, 0] (concatenate S4096x512 0 [⟨S2048x512, a4⟩, ⟨S2048x512, a5⟩] concatenates_S2048x512_S2048x512_S4096x512_d0) transposes_S4096x512_S512x4096_1_0))
          shapeCasts_S32768x4096_S64x512x4096)
        slices_S64x512x4096_S64x512x2048_0_0_0) shapeCasts_S64x512x2048_S64x512x4x512
      = Cert.ReferenceIdeal.Attn.refKV a1 a4 := by
  funext i
  obtain ⟨b, s, n, d, rfl⟩ : ∃ (b : Fin 64) (s : Fin 512) (n : Fin 4) (d : Fin 512), i = ValueIdx.ix4 b s n d :=
    ⟨i 0, i 1, i 2, i 3, ValueIdx.eq_ix4 i⟩
  rw [show Cert.ReferenceIdeal.Attn.refKV a1 a4 = Cert.ReferenceIdeal.Read.val_main_v17 (F := Ideal) a1 a4 from rfl,
    Cert.ReferenceIdeal.Read.val_main_v17_apply, Cert.ReferenceIdeal.Read.val_main_v16_apply]
  have hc : n.val * 512 + d.val < 2048 := by omega
  have hc' : 0 + (n.val * 512 + d.val) < 4096 := by omega
  have hr : b.val * 512 + s.val < 32768 := by omega
  -- the head split: entry (b, s, n, d) is entry (b, s, 512 n + d) of the slice
  refine (shapeCast_apply _ shapeCasts_S64x512x2048_S64x512x4x512 _
    (ValueIdx.ix3 b s (⟨n.val * 512 + d.val, hc⟩ : Fin 2048)) ?_).trans ?_
  · rw [Shape.rowMajor_val_three, Shape.rowMajor_val_four]
    show (b.val * 512 + s.val) * 2048 + (n.val * 512 + d.val) = ((b.val * 512 + s.val) * 4 + n.val) * 512 + d.val
    omega
  -- the slice: column c of the slice is column 0 + c of the product
  refine (extractStridedSlice_apply ![0, 0, 0] _ slices_S64x512x4096_S64x512x2048_0_0_0 _
    (ValueIdx.ix3 b s (⟨0 + (n.val * 512 + d.val), hc'⟩ : Fin 4096)) (fun a => match a with
      | ⟨0, _⟩ => by show b.val = 0 + b.val; omega
      | ⟨1, _⟩ => by show s.val = 0 + s.val; omega
      | ⟨2, _⟩ => rfl)).trans ?_
  -- rows of the product are the flattened (batch, position) pairs
  refine (shapeCast_apply _ shapeCasts_S32768x4096_S64x512x4096 _
    (ValueIdx.ix2 (⟨b.val * 512 + s.val, hr⟩ : Fin 32768) (⟨0 + (n.val * 512 + d.val), hc'⟩ : Fin 4096)) ?_).trans ?_
  · rw [Shape.rowMajor_val_two, Shape.rowMajor_val_three]
    show (b.val * 512 + s.val) * 4096 + (0 + (n.val * 512 + d.val)) = (b.val * 512 + s.val) * 4096 + (0 + (n.val * 512 + d.val))
    rfl
  rw [Cert.Spec.mm_apply]
  refine Finset.sum_congr rfl fun k _ => ?_
  refine congrArg₂ (· * ·) ?_ ?_
  · refine (shapeCast_apply a1 shapeCasts_S64x512x512_S32768x512 _ (ValueIdx.ix3 b s k) ?_).trans ?_
    · rw [Shape.rowMajor_val_two, Shape.rowMajor_val_three]
      show (b.val * 512 + s.val) * 512 + k.val = (b.val * 512 + s.val) * 512 + k.val
      rfl
    · exact congrArg a1 (funext fun a => Fin.ext (by
        match a with
        | ⟨0, _⟩ => show b.val = (((b.val * 512 + s.val) * 4 + n.val) * 512 + d.val) / 1048576; omega
        | ⟨1, _⟩ => show s.val = (((b.val * 512 + s.val) * 4 + n.val) * 512 + d.val) / 2048 % 512; omega
        | ⟨2, _⟩ => rfl))
  · refine (transpose_apply [1, 0] _ transposes_S4096x512_S512x4096_1_0 _
      (ValueIdx.ix2 (⟨0 + (n.val * 512 + d.val), hc'⟩ : Fin 4096) k) (fun c => match c with | ⟨0, _⟩ => rfl | ⟨1, _⟩ => rfl)).trans ?_
    refine (concatenate_pair_apply_left (0 : Fin S4096x512.rank) a4 a5 concatenates_S2048x512_S2048x512_S4096x512_d0 _ rfl
      (ValueIdx.ix2 (⟨n.val * 512 + d.val, hc⟩ : Fin 2048) k) (fun c => match c with
        | ⟨0, _⟩ => by show n.val * 512 + d.val = 0 + (n.val * 512 + d.val); omega
        | ⟨1, _⟩ => rfl)).trans ?_
    exact congrArg a4 (funext fun a => Fin.ext (by
      match a with
      | ⟨0, _⟩ => show n.val * 512 + d.val = (((b.val * 512 + s.val) * 4 + n.val) * 512 + d.val) % 2048; omega
      | ⟨1, _⟩ => rfl))

/-- Values: the last 2048 columns of the same product are `Σ_j h[b, s, j] · Wv[512 n + d, j]`. -/
theorem v_proj (a1 : FVec Ideal S64x512x512 .f32) (a4 a5 : FVec Ideal S2048x512 .f32) :
    shapeCast S64x512x4x512 (extractStridedSlice S64x512x2048 ![0, 0, 2048]
        (shapeCast S64x512x4096 (Cert.Spec.mm (M := 32768) (K := 512) (N := 4096)
          (shapeCast S32768x512 a1 shapeCasts_S64x512x512_S32768x512)
          (transpose S512x4096 [1, 0] (concatenate S4096x512 0 [⟨S2048x512, a4⟩, ⟨S2048x512, a5⟩] concatenates_S2048x512_S2048x512_S4096x512_d0) transposes_S4096x512_S512x4096_1_0))
          shapeCasts_S32768x4096_S64x512x4096)
        slices_S64x512x4096_S64x512x2048_0_0_2048) shapeCasts_S64x512x2048_S64x512x4x512
      = Cert.ReferenceIdeal.Attn.refKV a1 a5 := by
  funext i
  obtain ⟨b, s, n, d, rfl⟩ : ∃ (b : Fin 64) (s : Fin 512) (n : Fin 4) (d : Fin 512), i = ValueIdx.ix4 b s n d :=
    ⟨i 0, i 1, i 2, i 3, ValueIdx.eq_ix4 i⟩
  rw [show Cert.ReferenceIdeal.Attn.refKV a1 a5 = Cert.ReferenceIdeal.Read.val_main_v19 (F := Ideal) a1 a5 from rfl,
    Cert.ReferenceIdeal.Read.val_main_v19_apply, Cert.ReferenceIdeal.Read.val_main_v18_apply]
  have hc : n.val * 512 + d.val < 2048 := by omega
  have hc' : 2048 + (n.val * 512 + d.val) < 4096 := by omega
  have hr : b.val * 512 + s.val < 32768 := by omega
  -- the head split: entry (b, s, n, d) is entry (b, s, 512 n + d) of the slice
  refine (shapeCast_apply _ shapeCasts_S64x512x2048_S64x512x4x512 _
    (ValueIdx.ix3 b s (⟨n.val * 512 + d.val, hc⟩ : Fin 2048)) ?_).trans ?_
  · rw [Shape.rowMajor_val_three, Shape.rowMajor_val_four]
    show (b.val * 512 + s.val) * 2048 + (n.val * 512 + d.val) = ((b.val * 512 + s.val) * 4 + n.val) * 512 + d.val
    omega
  -- the slice: column c of the slice is column 2048 + c of the product
  refine (extractStridedSlice_apply ![0, 0, 2048] _ slices_S64x512x4096_S64x512x2048_0_0_2048 _
    (ValueIdx.ix3 b s (⟨2048 + (n.val * 512 + d.val), hc'⟩ : Fin 4096)) (fun a => match a with
      | ⟨0, _⟩ => by show b.val = 0 + b.val; omega
      | ⟨1, _⟩ => by show s.val = 0 + s.val; omega
      | ⟨2, _⟩ => rfl)).trans ?_
  -- rows of the product are the flattened (batch, position) pairs
  refine (shapeCast_apply _ shapeCasts_S32768x4096_S64x512x4096 _
    (ValueIdx.ix2 (⟨b.val * 512 + s.val, hr⟩ : Fin 32768) (⟨2048 + (n.val * 512 + d.val), hc'⟩ : Fin 4096)) ?_).trans ?_
  · rw [Shape.rowMajor_val_two, Shape.rowMajor_val_three]
    show (b.val * 512 + s.val) * 4096 + (2048 + (n.val * 512 + d.val)) = (b.val * 512 + s.val) * 4096 + (2048 + (n.val * 512 + d.val))
    rfl
  rw [Cert.Spec.mm_apply]
  refine Finset.sum_congr rfl fun k _ => ?_
  refine congrArg₂ (· * ·) ?_ ?_
  · refine (shapeCast_apply a1 shapeCasts_S64x512x512_S32768x512 _ (ValueIdx.ix3 b s k) ?_).trans ?_
    · rw [Shape.rowMajor_val_two, Shape.rowMajor_val_three]
      show (b.val * 512 + s.val) * 512 + k.val = (b.val * 512 + s.val) * 512 + k.val
      rfl
    · exact congrArg a1 (funext fun a => Fin.ext (by
        match a with
        | ⟨0, _⟩ => show b.val = (((b.val * 512 + s.val) * 4 + n.val) * 512 + d.val) / 1048576; omega
        | ⟨1, _⟩ => show s.val = (((b.val * 512 + s.val) * 4 + n.val) * 512 + d.val) / 2048 % 512; omega
        | ⟨2, _⟩ => rfl))
  · refine (transpose_apply [1, 0] _ transposes_S4096x512_S512x4096_1_0 _
      (ValueIdx.ix2 (⟨2048 + (n.val * 512 + d.val), hc'⟩ : Fin 4096) k) (fun c => match c with | ⟨0, _⟩ => rfl | ⟨1, _⟩ => rfl)).trans ?_
    refine (concatenate_pair_apply_right (0 : Fin S4096x512.rank) a4 a5 concatenates_S2048x512_S2048x512_S4096x512_d0 _ rfl rfl
      (ValueIdx.ix2 (⟨n.val * 512 + d.val, hc⟩ : Fin 2048) k) (fun c => match c with
        | ⟨0, _⟩ => fun h => absurd rfl h
        | ⟨1, _⟩ => fun _ => rfl) (by show n.val * 512 + d.val + 2048 = 2048 + (n.val * 512 + d.val); omega)).trans ?_
    exact congrArg a5 (funext fun a => Fin.ext (by
      match a with
      | ⟨0, _⟩ => show n.val * 512 + d.val = (((b.val * 512 + s.val) * 4 + n.val) * 512 + d.val) % 2048; omega
      | ⟨1, _⟩ => rfl))

end Cert.Bridge

end
-- ==== Proof.lean ====
/-
  Grouped-query attention over a history: the kernel program projects the queries and (fused, the two weight matrices
  stacked) the keys and values with two pipelined matrix-product kernels on bf16 operands, then normalises, scores,
  applies the padding bias, the softmax and the weighted sum in plain array operations; the reference does the three
  projections as contractions `Σ_j x[…, j] · W[e, j]` and then the same array operations.

  At the ideal instance a change of float format is the identity and a matrix product into a zero accumulator is the
  plain sum of products over the extended reals, so:
  * each pipeline leaves in its output array the product of the two operand arrays it finds (`MatmulValue`): the
    blocks of rows the grid points write cover the array, and each is that product's rows;
  * the operands are re-layings of the arguments (batch and position axes merged; the weights transposed; key and
    value weights stacked), and the host stretches cut the products back into `[64, 8, 512]` and into two
    `[64, 512, 4, 512]` halves: index by index these are the reference's three contractions (`Leaves`) — sums over the
    same 512 terms in the same order, so no finiteness of the inputs is needed;
  * everything after the projections is literally the same composition of operations in both programs (`Tail`,
    `RefTail`, `KTail`), so equal projections give equal results.
  The kernel programs' frames are the generated ones; the reference's frame is its run with the results dropped; the
  idealization rewrote nothing, so `preserves` is trivial.
-/
import proofs.«123326_j592705487400_1_alg».proof.Defs
import proofs.«123326_j592705487400_1_alg».proof.Proof.Gen.Kernel
import proofs.«123326_j592705487400_1_alg».proof.Proof.Gen.Kernel.Skeleton
import proofs.«123326_j592705487400_1_alg».proof.Proof.Gen.Kernel.Launch
import proofs.«123326_j592705487400_1_alg».proof.Proof.Gen.Kernel.Points
import proofs.«123326_j592705487400_1_alg».proof.Proof.Gen.Kernel.Frame
import proofs.«123326_j592705487400_1_alg».proof.Proof.Gen.KernelIdeal
import proofs.«123326_j592705487400_1_alg».proof.Proof.Gen.KernelIdeal.Skeleton
import proofs.«123326_j592705487400_1_alg».proof.Proof.Gen.KernelIdeal.Launch
import proofs.«123326_j592705487400_1_alg».proof.Proof.Gen.KernelIdeal.Points
import proofs.«123326_j592705487400_1_alg».proof.Proof.Gen.KernelIdeal.Frame
import proofs.«123326_j592705487400_1_alg».proof.Proof.Gen.ReferenceIdeal
import proofs.«123326_j592705487400_1_alg».proof.Proof.Gen.Pre_finite_inputs
import proofs.«123326_j592705487400_1_alg».proof.Proof.Gen.ReferenceIdeal.Run
import proofs.«123326_j592705487400_1_alg».proof.Proof.Gen.ReferenceIdeal.Read
import proofs.«123326_j592705487400_1_alg».proof.Proof.KRun
import proofs.«123326_j592705487400_1_alg».proof.Proof.KTail
import proofs.«123326_j592705487400_1_alg».proof.Proof.MatmulValue
import proofs.«123326_j592705487400_1_alg».proof.Proof.Leaves
import proofs.«123326_j592705487400_1_alg».proof.Proof.RefTail
import Idealize.ShloMosaic.Adequacy
import Idealize.ShloMosaic.Init

noncomputable section

namespace Cert.Proof

open Idealize.ShloMosaic Idealize.ShloMosaic.TcCoe Idealize.SL.Sem
open Cert.ReferenceIdeal.Attn (refQ refKV tokens weights probs)

/-! ## The kernel's three projections are the reference's -/

section Projections

open Cert.KernelIdeal Cert.KernelIdeal.Gen Cert.KernelIdeal.HostValue

variable (m : (ℓ : Loc nD τ sig) → Buf (Elt Ideal) ℓ) (ρ : Dev nD → PrngReg)

/-- The first pipeline's output array, cut into `[64, 8, 512]`, is `Σ_j target[b, t, j] · Wq[e, j]`. -/
theorem qK_eq (c : Dev nD) :
    qK m ρ c = refQ (m ((c : Thread nD τ).loc main_arg0)) (m ((c : Thread nD τ).loc main_arg3)) := by
  unfold qK
  rw [show W2 m ρ c (Proc.devRef .tc main_v2) = (dat0 (V1 m ρ) c).arrAt 2 cfg0.N from W2_arr m ρ c 2,
    Cert.KernelIdeal.MatmulValue.region0_array,
    show V1 m ρ c main_v0 = _ from W1_v0 m ρ c, show V1 m ρ c main_v1 = _ from W1_v1 m ρ c]
  exact Cert.Bridge.q_proj _ _

/-- The second pipeline's output array is the product of the merged history with the stacked, transposed weights. -/
theorem kv_eq (c : Dev nD) :
    W4 m ρ c (Proc.devRef .tc main_v22) = Cert.Spec.mm (M := 32768) (K := 512) (N := 4096)
      (shapeCast S32768x512 (m ((c : Thread nD τ).loc main_arg1)) shapeCasts_S64x512x512_S32768x512)
      (transpose S512x4096 [1, 0] (concatenate S4096x512 0 [⟨S2048x512, m ((c : Thread nD τ).loc main_arg4)⟩, ⟨S2048x512, m ((c : Thread nD τ).loc main_arg5)⟩] concatenates_S2048x512_S2048x512_S4096x512_d0) transposes_S4096x512_S512x4096_1_0) := by
  rw [show W4 m ρ c (Proc.devRef .tc main_v22) = (dat1 (V3 m ρ) c).arrAt 2 cfg1.N from W4_arr m ρ c 2,
    Cert.KernelIdeal.MatmulValue.region1_array,
    show V3 m ρ c main_v20 = _ from W3_v20 m ρ c, show V3 m ρ c main_v21 = _ from W3_v21 m ρ c]

/-- Its first 2048 columns, split into heads, are `Σ_j history[b, s, j] · Wk[512 n + d, j]`. -/
theorem kK_eq (c : Dev nD) :
    kK m ρ c = refKV (m ((c : Thread nD τ).loc main_arg1)) (m ((c : Thread nD τ).loc main_arg4)) := by
  unfold kK
  rw [kv_eq]
  exact Cert.Bridge.k_proj _ _ _

/-- Its last 2048 columns, split into heads, are `Σ_j history[b, s, j] · Wv[512 n + d, j]`. -/
theorem vK_eq (c : Dev nD) :
    vK m ρ c = refKV (m ((c : Thread nD τ).loc main_arg1)) (m ((c : Thread nD τ).loc main_arg5)) := by
  unfold vK
  rw [kv_eq]
  exact Cert.Bridge.v_proj _ _ _

end Projections

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the attention functions of the SAME three projections of arguments that agree. -/
theorem algebraic : Cert.algebraic_KernelIdeal_ReferenceIdeal := by
  intro m ρ m' ρ' _ hagree
  refine ⟨fun c => tokens (F := Ideal) (probs
        (refQ (m ((c.tc : Thread Cert.KernelIdeal.nD Cert.KernelIdeal.τ).loc Cert.KernelIdeal.main_arg0)) (m ((c.tc : Thread Cert.KernelIdeal.nD Cert.KernelIdeal.τ).loc Cert.KernelIdeal.main_arg3)))
        (refKV (m ((c.tc : Thread Cert.KernelIdeal.nD Cert.KernelIdeal.τ).loc Cert.KernelIdeal.main_arg1)) (m ((c.tc : Thread Cert.KernelIdeal.nD Cert.KernelIdeal.τ).loc Cert.KernelIdeal.main_arg4)))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)))
      (refKV (m ((c.tc : Thread Cert.KernelIdeal.nD Cert.KernelIdeal.τ).loc Cert.KernelIdeal.main_arg1)) (m ((c.tc : Thread Cert.KernelIdeal.nD Cert.KernelIdeal.τ).loc Cert.KernelIdeal.main_arg5))),
    fun c => weights (F := Ideal) (probs
        (refQ (m ((c.tc : Thread Cert.KernelIdeal.nD Cert.KernelIdeal.τ).loc Cert.KernelIdeal.main_arg0)) (m ((c.tc : Thread Cert.KernelIdeal.nD Cert.KernelIdeal.τ).loc Cert.KernelIdeal.main_arg3)))
        (refKV (m ((c.tc : Thread Cert.KernelIdeal.nD Cert.KernelIdeal.τ).loc Cert.KernelIdeal.main_arg1)) (m ((c.tc : Thread Cert.KernelIdeal.nD Cert.KernelIdeal.τ).loc Cert.KernelIdeal.main_arg4)))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))), ?_, ?_⟩
  · refine (θ_run Cert.KernelIdeal.defs _ _).mono (fun r h c => ?_) (Cert.KernelIdeal.GenRun.run (F := Ideal) m ρ)
    obtain ⟨h0, h1, hargs⟩ := h c
    refine ⟨h0.trans ?_, h1.trans ?_, hargs⟩
    · rw [Cert.KernelIdeal.HostValue.result0, qK_eq, kK_eq, vK_eq]
    · rw [Cert.KernelIdeal.HostValue.result1, qK_eq, kK_eq]
  · refine (θ_run Cert.ReferenceIdeal.defs _ _).mono (fun r h c => ?_) (Cert.ReferenceIdeal.Value.run (F := Ideal) m' ρ')
    obtain ⟨h0, h1, hargs⟩ := h c
    obtain ⟨e0, e1, e2, e3, e4, e5, e6, e7⟩ := hagree c
    refine ⟨h0.trans ?_, h1.trans ?_, hargs⟩
    · refine (Cert.ReferenceIdeal.Attn.res_out0_eq m' c).trans ?_
      rw [e0, e1, e2, e3, e4, e5, e6, e7]
    · refine (Cert.ReferenceIdeal.Attn.res_out1_eq m' c).trans ?_
      rw [e0, e1, e2, e3, e4, e6, e7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
